-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S8388608 : Shape := ⟨1, ![8388608]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S8388608 : S_.BroadcastsInDim S8388608 (![] : Fin 0 → Fin S8388608.rank)
  reducesTo_S8388608_S_d0 : S8388608.ReducesTo [0] S_

variable [Facts]

def fn {F : FTy → Type} [FloatOps F] (main_arg0 : FVec F S8388608x3 .f32) (main_arg1 : IVec S8388608 32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_c_0 : IVec S_ 32 := constantI S_ 32 0#32
  let main_v4 : IVec S8388608 32 := broadcastInDim S8388608 ![] bcast_S_S8388608 main_c_0
  let main_v5 : IVec S8388608 1 := cmpi .sge main_arg1 main_v4
  let main_c_1 : IVec S_ 32 := constantI S_ 32 8#32
  let main_v6 : IVec S8388608 32 := broadcastInDim S8388608 ![] bcast_S_S8388608 main_c_1
  let main_v7 : IVec S8388608 1 := cmpi .slt main_arg1 main_v6
  let main_v8 : IVec S8388608 1 := andi main_v5 main_v7
  let main_c_2 : IVec S_ 1 := constantI S_ 1 1#1
  let main_v9 : IVec S_ 1 := (fun x v => Host.reduce IntOp.andi x v reducesTo_S8388608_S_d0 h_S_) main_v8 main_c_2
  let main_v10 : IVec S_ 1 := andi main_v3 main_v9
  main_v10
-- ==== Kernel.lean ====
abbrev S8388608x3 : Shape := ⟨2, ![8388608, 3]⟩
abbrev S8388608 : Shape := ⟨1, ![8388608]⟩
abbrev S8x3 : Shape := ⟨2, ![8, 3]⟩
abbrev S8 : Shape := ⟨1, ![8]⟩
abbrev S3x8388608 : Shape := ⟨2, ![3, 8388608]⟩
abbrev S1x8388608 : Shape := ⟨2, ![1, 8388608]⟩
abbrev S8x1 : Shape := ⟨2, ![8, 1]⟩
abbrev S16x128 : Shape := ⟨2, ![16, 128]⟩
abbrev S3x65536 : Shape := ⟨2, ![3, 65536]⟩
abbrev S1x65536 : Shape := ⟨2, ![1, 65536]⟩
abbrev S8x128 : Shape := ⟨2, ![8, 128]⟩
abbrev S8x65536 : Shape := ⟨2, ![8, 65536]⟩
abbrev S65536 : Shape := ⟨1, ![65536]⟩
abbrev S1 : Shape := ⟨1, ![1]⟩
abbrev S1x1 : Shape := ⟨2, ![1, 1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S8x3, .f32⟩
  | .hbm, ⟨3, _⟩ => ⟨S8, .f32⟩
  | .hbm, ⟨4, _⟩ => ⟨S3x8388608, .f32⟩
  | .hbm, ⟨5, _⟩ => ⟨S1x8388608, .i32⟩
  | .hbm, ⟨6, _⟩ => ⟨S8x1, .f32⟩
  | .hbm, ⟨7, _⟩ => ⟨S16x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S3x65536, .f32⟩
  | .local _ .vmem, ⟨1, _⟩ => ⟨S3x65536, .f32⟩
  | .local _ .vmem, ⟨2, _⟩ => ⟨S1x65536, .i32⟩
  | .local _ .vmem, ⟨3, _⟩ => ⟨S1x65536, .i32⟩
  | .local _ .vmem, ⟨4, _⟩ => ⟨S8x3, .f32⟩
  | .local _ .vmem, ⟨5, _⟩ => ⟨S8x1, .f32⟩
  | .local _ .vmem, ⟨6, _⟩ => ⟨S8x128, .f32⟩
  | .local _ .vmem, ⟨7, _⟩ => ⟨S8x128, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S8388608x3_S3x8388608_1_0 : S8388608x3.Transposes [1, 0] S3x8388608
  shapeCasts_S8388608_S1x8388608 : S8388608.ShapeCasts S1x8388608
  shapeCasts_S8_S8x1 : S8.ShapeCasts S8x1
  inb_S8x128_S8x128_0_0 : ∀ a, (![0, 0] : Fin 2 → Nat) a + S8x128.size a ≤ S8x128.size a
  h_S8x128 : 0 < S8x128.numel
  inb_S3x65536_S3x65536_0_0 : ∀ a, (![0, 0] : Fin 2 → Nat) a + S3x65536.size a ≤ S3x65536.size a
  h_S3x65536 : 0 < S3x65536.numel
  shapeCasts_S3x65536_S3x65536 : S3x65536.ShapeCasts S3x65536
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  inb_S8x3_S8x3_0_0 : ∀ a, (![0, 0] : Fin 2 → Nat) a + S8x3.size a ≤ S8x3.size a
  h_S8x3 : 0 < S8x3.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  slices_S3x65536_o0_0_S1x65536 : S3x65536.Slices ![0, 0] S1x65536
  slices_S3x65536_o1_0_S1x65536 : S3x65536.Slices ![1, 0] S1x65536
  slices_S3x65536_o2_0_S1x65536 : S3x65536.Slices ![2, 0] S1x65536
  slices_S8x3_o0_0_S8x1 : S8x3.Slices ![0, 0] S8x1
  slices_S8x3_o0_1_S8x1 : S8x3.Slices ![0, 1] S8x1
  slices_S8x3_o0_2_S8x1 : S8x3.Slices ![0, 2] S8x1
  broadcasts_S8x1_S8x65536 : S8x1.Broadcasts S8x65536
  broadcasts_S1x65536_S8x65536 : S1x65536.Broadcasts S8x65536
  reduces_S8x65536_S65536 : S8x65536.Reduces [0] S65536
  shapeCasts_S65536_S1x65536 : S65536.ShapeCasts S1x65536
  iota_S8x65536_d0_w32 : S8x65536.Iotas .tc 32 [0]
  reduces_S1x65536_S1 : S1x65536.Reduces [1] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x8388608.size a
  hwx0_0 : ∀ i : grid0.Coords, EltTy.bits .f32 = 32 ∨ (Rect.block (s := S3x8388608) S3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x8388608.size a
  hwx0_1 : ∀ i : grid0.Coords, EltTy.bits .i32 = 32 ∨ (Rect.block (s := S1x8388608) S1x65536.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x3.size a ≤ S8x3.size a
  hwx0_2 : ∀ i : grid0.Coords, EltTy.bits .f32 = 32 ∨ (Rect.block (s := S8x3) S8x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S8x1.size a
  hwx0_3 : ∀ i : grid0.Coords, EltTy.bits .f32 = 32 ∨ (Rect.block (s := S8x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_v0) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S8x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608 : Shape := ⟨1, ![8388608]⟩
abbrev S3x8 : Shape := ⟨2, ![3, 8]⟩
abbrev S8 : Shape := ⟨1, ![8]⟩
abbrev S8388608x8 : Shape := ⟨2, ![8388608, 8]⟩
abbrev S1x8 : Shape := ⟨2, ![1, 8]⟩
abbrev S_ : Shape := ⟨0, ![]⟩
abbrev S8388608x1 : Shape := ⟨2, ![8388608, 1]⟩
abbrev S8388608x1x1 : Shape := ⟨3, ![8388608, 1, 1]⟩
abbrev S1 : Shape := ⟨1, ![1]⟩
abbrev S1x1x1 : Shape := ⟨3, ![1, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608, .i32⟩
  | .hbm, ⟨2, _⟩ => ⟨S3x8, .f32⟩
  | .hbm, ⟨3, _⟩ => ⟨S8, .f32⟩
  | .hbm, ⟨4, _⟩ => ⟨S8388608x8, .f32⟩
  | .hbm, ⟨5, _⟩ => ⟨S1x8, .f32⟩
  | .hbm, ⟨6, _⟩ => ⟨S8388608x8, .f32⟩
  | .hbm, ⟨7, _⟩ => ⟨S8388608x8, .f32⟩
  | .hbm, ⟨8, _⟩ => ⟨S_, .f32⟩
  | .hbm, ⟨9, _⟩ => ⟨S8388608, .f32⟩
  | .hbm, ⟨10, _⟩ => ⟨S_, .f32⟩
  | .hbm, ⟨11, _⟩ => ⟨S8388608, .f32⟩
  | .hbm, ⟨12, _⟩ => ⟨S8388608, .f32⟩
  | .hbm, ⟨13, _⟩ => ⟨S8388608x1, .f32⟩
  | .hbm, ⟨14, _⟩ => ⟨S8388608x8, .f32⟩
  | .hbm, ⟨15, _⟩ => ⟨S8388608x8, .f32⟩
  | .hbm, ⟨16, _⟩ => ⟨S8388608x8, .f32⟩
  | .hbm, ⟨17, _⟩ => ⟨S_, .f32⟩
  | .hbm, ⟨18, _⟩ => ⟨S8388608, .f32⟩
  | .hbm, ⟨19, _⟩ => ⟨S8388608x1, .f32⟩
  | .hbm, ⟨20, _⟩ => ⟨S8388608x1, .f32⟩
  | .hbm, ⟨21, _⟩ => ⟨S8388608x8, .f32⟩
  | .hbm, ⟨22, _⟩ => ⟨S8388608x8, .f32⟩
  | .hbm, ⟨23, _⟩ => ⟨S8388608x1, .i32⟩
  | .hbm, ⟨24, _⟩ => ⟨S_, .i32⟩
  | .hbm, ⟨25, _⟩ => ⟨S8388608x1, .i32⟩
  | .hbm, ⟨26, _⟩ => ⟨S8388608x1, .i1⟩
  | .hbm, ⟨27, _⟩ => ⟨S_, .i32⟩
  | .hbm, ⟨28, _⟩ => ⟨S8388608x1, .i32⟩
  | .hbm, ⟨29, _⟩ => ⟨S8388608x1, .i32⟩
  | .hbm, ⟨30, _⟩ => ⟨S8388608x1, .i32⟩
  | .hbm, ⟨31, _⟩ => ⟨S8388608x1x1, .i32⟩
  | .hbm, ⟨32, _⟩ => ⟨S1, .i32⟩
  | .hbm, ⟨33, _⟩ => ⟨S_, .i32⟩
  | .hbm, ⟨34, _⟩ => ⟨S8388608x1x1, .i32⟩
  | .hbm, ⟨35, _⟩ => ⟨S8388608x1x1, .i1⟩
  | .hbm, ⟨36, _⟩ => ⟨S1x1x1, .i32⟩
  | .hbm, ⟨37, _⟩ => ⟨S8388608x1x1, .i32⟩
  | .hbm, ⟨38, _⟩ => ⟨S8388608x1x1, .i1⟩
  | .hbm, ⟨39, _⟩ => ⟨S8388608x1x1, .i1⟩
  | .hbm, ⟨40, _⟩ => ⟨S_, .i1⟩
  | .hbm, ⟨41, _⟩ => ⟨S8388608x1, .i1⟩
  | .hbm, ⟨42, _⟩ => ⟨S8388608x1, .f32⟩
  | .hbm, ⟨43, _⟩ => ⟨S_, .f32⟩
  | .hbm, ⟨44, _⟩ => ⟨S8388608x1, .f32⟩
  | .hbm, ⟨45, _⟩ => ⟨S8388608x1, .f32⟩
  | .hbm, ⟨46, _⟩ => ⟨S8388608, .f32⟩
  | .hbm, ⟨47, _⟩ => ⟨S8388608, .f32⟩
  | .hbm, ⟨48, _⟩ => ⟨S8388608, .f32⟩
  | .hbm, ⟨49, _⟩ => ⟨S8388608, .f32⟩
  | .hbm, ⟨50, _⟩ => ⟨S_, .f32⟩
  | .hbm, ⟨51, _⟩ => ⟨S8388608, .f32⟩
  | .hbm, ⟨52, _⟩ => ⟨S8388608, .f32⟩
  | .hbm, ⟨53, _⟩ => ⟨S_, .f32⟩
  | .hbm, ⟨54, _⟩ => ⟨S8388608, .f32⟩
  | .hbm, ⟨55, _⟩ => ⟨S8388608, .f32⟩
  | .hbm, ⟨56, _⟩ => ⟨S8388608, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_v5 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst_1 : Ref sig .tc := ⟨.hbm, 50, rfl⟩
abbrev main_v11 : Ref sig .tc := ⟨.hbm, 51, rfl⟩
abbrev main_v12 : Ref sig .tc := ⟨.hbm, 52, rfl⟩
abbrev main_cst_2 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst_3 : Ref sig .tc := ⟨.hbm, 57, rfl⟩
abbrev main_v16 : Ref sig .tc := ⟨.hbm, 58, rfl⟩
abbrev main_cst_4 : Ref sig .tc := ⟨.hbm, 59, rfl⟩
abbrev main_v17 : Ref sig .tc := ⟨.hbm, 60, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S8388608x8_0_1 : S1x8.BroadcastsInDim S8388608x8 (![0, 1] : Fin 2 → Fin S8388608x8.rank)
  reducesTo_S8388608x8_S8388608_d1 : S8388608x8.ReducesTo [1] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S8388608x1_S8388608x8_0_1 : S8388608x1.BroadcastsInDim S8388608x8 (![0, 1] : Fin 2 → Fin S8388608x8.rank)
  bcast_S_S8388608x1 : S_.BroadcastsInDim S8388608x1 (![] : Fin 0 → Fin S8388608x1.rank)
  shapeCasts_S8388608x1_S8388608x1x1 : S8388608x1.ShapeCasts S8388608x1x1
  bcast_S_S8388608x1x1 : S_.BroadcastsInDim S8388608x1x1 (![] : Fin 0 → Fin S8388608x1x1.rank)
  bcast_S1_S1x1x1_2 : S1.BroadcastsInDim S1x1x1 (![2] : Fin 1 → Fin S1x1x1.rank)
  bcast_S1x1x1_S8388608x1x1_0_1_2 : S1x1x1.BroadcastsInDim S8388608x1x1 (![0, 1, 2] : Fin 3 → Fin S8388608x1x1.rank)
  reducesTo_S8388608x1x1_S8388608x1_d2 : S8388608x1x1.ReducesTo [2] S8388608x1
  shapeCasts_S8388608x1_S8388608 : S8388608x1.ShapeCasts S8388608
  reducesTo_S8388608_S_d0 : S8388608.ReducesTo [0] S_
  dot_S8388608x3_S3x8_S8388608x8_1_0_0_1_n_n_wf : DotDims.WF S8388608x3 S3x8 S8388608x8 [1] [0] [0] [1] [] []
  gather_S8388608x8_S8388608x1x1_S8388608x1_n_1_0_0_1_2_11_wf : GatherDims.WF S8388608x8 S8388608x1x1 S8388608x1 [] [1] [0] [1] [0] 2 ![1, 1]

variable [Facts₀]

def dot_S8388608x3_S3x8_S8388608x8_1_0_0_1_n_n : DotDims S8388608x3 S3x8 S8388608x8 where
  lhsContracting := [1]
  rhsContracting := [0]
  lhsNonContracting := [0]
  rhsNonContracting := [1]
  lhsBatch := []
  rhsBatch := []
  wf := dot_S8388608x3_S3x8_S8388608x8_1_0_0_1_n_n_wf
def gather_S8388608x8_S8388608x1x1_S8388608x1_n_1_0_0_1_2_11 : GatherDims S8388608x8 S8388608x1x1 S8388608x1 where
  offsetDims := []
  collapsedSliceDims := [1]
  operandBatchingDims := [0]
  startIndicesBatchingDims := [0]
  startIndexMap := [1]
  indexVectorDim := 2
  sliceSizes := ![1, 1]
  wf := gather_S8388608x8_S8388608x1x1_S8388608x1_n_1_0_0_1_2_11_wf

class Facts : Prop extends Facts₀ where

variable [Facts]
-- ==== Proof.Spec.lean ====
/-
  The focal loss of one row, in the two arrangements the two programs compute it, and their sums.

  A row is three finite features x and a class t < 8.  Its eight logits are l j = M j · x + b j for a fixed 8 × 3 matrix M and
  offsets b.  With mx the largest logit and s = ∑ₖ exp (l k − mx), the log-probability of class j is
      l j − (log s + mx)            in one arrangement, and
      (l j − mx) − log s            in the other;
  they agree because every quantity is a real number.  From g, the log-probability of the row's own class, with p = exp g the
  loss is (1 − p)(1 − p)(0 − g) in one arrangement and (1 − exp (−(−g)))² (−g) in the other, the square taken as a real power
  with exponent 2.  The total is the sum of the row losses, taken block by block (2 × 64 blocks of 65536 consecutive rows) in
  one arrangement and row by row in the other, divided by the row count.
-/
import Idealize.ShloMosaic.PureOps.Ideal
import Idealize.ShloMosaic.PureOps.Ideal.Laws

noncomputable section

namespace Cert.Focal

open Idealize.ShloMosaic

/-! ## The constants both programs spell -/

/-- `+0.0`. -/
abbrev w0 : EReal := Ideal.ofBits .f32 0x00000000#32
/-- `1.0`. -/
abbrev w1 : EReal := Ideal.ofBits .f32 0x3F800000#32
/-- `2.0`, the exponent of the square. -/
abbrev w2 : EReal := Ideal.ofBits .f32 0x40000000#32
/-- `-inf`, from which a maximum is folded. -/
abbrev wBot : EReal := Ideal.ofBits .f32 0xFF800000#32
/-- `8388608.0`, the row count. -/
abbrev wN : EReal := Ideal.ofBits .f32 0x4B000000#32

theorem w0_eq : w0 = 0 := Ideal.ofBits_zero_f32
theorem w1_eq : w1 = 1 := by
  simp [Ideal.ofBits, Ideal.ieee, -EReal.coe_mul]; norm_num
theorem w2_eq : w2 = ((2 : ℝ) : EReal) := by
  simp [Ideal.ofBits, Ideal.ieee, -EReal.coe_mul]; norm_num
theorem wBot_eq : wBot = ⊥ := by
  simp [Ideal.ofBits, Ideal.ieee]

/-- The five words the matrix and the offsets are made of (1, 0, 1/2, and the two roundings of ±1/3) denote real numbers. -/
theorem word_real (w : BitVec 32)
    (h : w = 0x3F800000#32 ∨ w = 0x00000000#32 ∨ w = 0x3F000000#32 ∨ w = 0x3EAAAAAB#32 ∨ w = 0xBEAAAAAB#32) :
    ∃ r : ℝ, Ideal.ofBits .f32 w = (r : EReal) := by
  -- 1 and 0 are the constants above; the other three have an exponent field below 255, so they are a signed
  -- significand times a power of two.
  rcases h with rfl | rfl | rfl | rfl | rfl
  · exact ⟨1, w1_eq⟩
  · exact ⟨0, w0_eq⟩
  · exact ⟨_, by simp only [Ideal.ofBits, Ideal.ieee]; simp [-EReal.coe_mul]; rfl⟩
  · exact ⟨_, by simp only [Ideal.ofBits, Ideal.ieee]; simp [-EReal.coe_mul]; rfl⟩
  · exact ⟨_, by simp only [Ideal.ofBits, Ideal.ieee]; simp [-EReal.coe_mul]; rfl⟩

/-! ## One row -/

/-- The class a target word names (a word below 8 names itself). -/
def cls (t : BitVec 32) : Fin 8 := ⟨t.toNat % 8, Nat.mod_lt _ (by decide)⟩

theorem cls_val (t : BitVec 32) (h : t.toNat < 8) : (cls t).val = t.toNat := Nat.mod_eq_of_lt h

/-- The logits, features multiplied from the right and added left to right, the offset last. -/
def logitK (M : Fin 8 → Fin 3 → EReal) (b : Fin 8 → EReal) (x : Fin 3 → EReal) (j : Fin 8) : EReal :=
  M j 0 * x 0 + M j 1 * x 1 + M j 2 * x 2 + b j

/-- The largest of eight logits, folded from `-inf`. -/
def mxK (l : Fin 8 → EReal) : EReal := (Finset.univ : Finset (Fin 8)).fold max wBot l

/-- The log-probabilities with the maximum added back to the logarithm before the subtraction. -/
def lsmK (l : Fin 8 → EReal) (j : Fin 8) : EReal :=
  l j - (Ideal.log (∑ k : Fin 8, Ideal.exp (l k - mxK l)) + mxK l)

/-- The loss from the log-probability g of the row's class: (1 − eᵍ)(1 − eᵍ)(0 − g). -/
def lossK (g : EReal) : EReal := (w1 - Ideal.exp g) * (w1 - Ideal.exp g) * (w0 - g)

/-- A row's loss in the first arrangement. -/
def rowK (M : Fin 8 → Fin 3 → EReal) (b : Fin 8 → EReal) (x : Fin 3 → EReal) (t : BitVec 32) : EReal :=
  lossK (lsmK (logitK M b x) (cls t))

/-- The logits as a contraction over the three features, the matrix stored feature-major. -/
def logitR (M' : Fin 3 → Fin 8 → EReal) (b : Fin 8 → EReal) (x : Fin 3 → EReal) (j : Fin 8) : EReal :=
  (∑ k : Fin 3, x k * M' k j) + b j

/-- The largest logit, the fold compared once more with `-inf`. -/
def mxR (l : Fin 8 → EReal) : EReal := max wBot ((Finset.univ : Finset (Fin 8)).fold max wBot l)

/-- The log-probabilities with the maximum subtracted first. -/
def lsmR (l : Fin 8 → EReal) (j : Fin 8) : EReal :=
  (l j - mxR l) - Ideal.log (w0 + ∑ k : Fin 8, Ideal.exp (l k - mxR l))

/-- The loss from the log-probability g: (1 − exp (−(−g)))² · (−g), the square a real power. -/
def lossR (g : EReal) : EReal := Ideal.pow (w1 - Ideal.exp (-(-g))) w2 * (-g)

/-- A row's loss in the second arrangement. -/
def rowR (M' : Fin 3 → Fin 8 → EReal) (b : Fin 8 → EReal) (x : Fin 3 → EReal) (t : BitVec 32) : EReal :=
  lossR (lsmR (logitR M' b x) (cls t))

/-! ### Real rows

  When the matrix, the offsets and the features are real, every intermediate quantity is the image of a real number, and the
  two arrangements are compared inside ℝ. -/

/-- A finite sum of images of reals is the image of the real sum. -/
private theorem coe_sum {ι : Type} (s : Finset ι) (f : ι → ℝ) :
    ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- Real logits, first arrangement. -/
private theorem logitK_coe (Mr : Fin 8 → Fin 3 → ℝ) (br : Fin 8 → ℝ) (xr : Fin 3 → ℝ) (j : Fin 8) :
    logitK (fun j k => ((Mr j k : ℝ) : EReal)) (fun j => ((br j : ℝ) : EReal)) (fun k => ((xr k : ℝ) : EReal)) j
      = ((Mr j 0 * xr 0 + Mr j 1 * xr 1 + Mr j 2 * xr 2 + br j : ℝ) : EReal) := by
  simp only [logitK, EReal.coe_add, EReal.coe_mul]

/-- Real logits, second arrangement: the contraction over three features is the same three products, each commuted. -/
private theorem logitR_coe (Mr : Fin 8 → Fin 3 → ℝ) (br : Fin 8 → ℝ) (xr : Fin 3 → ℝ) (j : Fin 8) :
    logitR (fun k j => ((Mr j k : ℝ) : EReal)) (fun j => ((br j : ℝ) : EReal)) (fun k => ((xr k : ℝ) : EReal)) j
      = ((Mr j 0 * xr 0 + Mr j 1 * xr 1 + Mr j 2 * xr 2 + br j : ℝ) : EReal) := by
  simp only [logitR, Fin.sum_univ_three, EReal.coe_add, EReal.coe_mul, mul_comm]

/-- The maximum of eight reals folded from `-inf` is one of them, hence real. -/
private theorem mxK_coe (lr : Fin 8 → ℝ) : ∃ m : ℝ, mxK (fun j => ((lr j : ℝ) : EReal)) = (m : EReal) := by
  obtain ⟨i, -, hi⟩ := Finset.exists_mem_eq_sup (Finset.univ : Finset (Fin 8)) Finset.univ_nonempty
    (fun j => ((lr j : ℝ) : EReal))
  refine ⟨lr i, ?_⟩
  rw [← hi, mxK, wBot_eq]
  rfl

/-- Comparing once more with `-inf` changes nothing. -/
private theorem mxR_eq (l : Fin 8 → EReal) : mxR l = mxK l := by
  rw [mxR, mxK, wBot_eq]
  exact max_eq_right bot_le

/-- The sum of the eight exponentials is the image of a positive real, and so is its logarithm's argument. -/
private theorem sumExp_coe (lr : Fin 8 → ℝ) (m : ℝ) :
    ∑ k : Fin 8, Ideal.exp (((lr k : ℝ) : EReal) - (m : EReal)) = ((∑ k : Fin 8, Real.exp (lr k - m) : ℝ) : EReal) := by
  rw [← coe_sum]
  refine Finset.sum_congr rfl fun k _ => ?_
  rw [← EReal.coe_sub, Ideal.exp_coe]

private theorem sumExp_pos (lr : Fin 8 → ℝ) (m : ℝ) : 0 < ∑ k : Fin 8, Real.exp (lr k - m) :=
  Finset.sum_pos (fun _ _ => Real.exp_pos _) Finset.univ_nonempty

/-- The logarithm of the image of a positive real. -/
private theorem log_coe_pos {S : ℝ} (hS : 0 < S) : Ideal.log (S : EReal) = ((Real.log S : ℝ) : EReal) := by
  rw [Ideal.log_coe, if_neg (not_le.mpr hS)]

/-- First arrangement of the log-probability on real logits with real maximum m:  l j − (log s + m). -/
private theorem lsmK_coe (lr : Fin 8 → ℝ) (m : ℝ) (hm : mxK (fun j => ((lr j : ℝ) : EReal)) = (m : EReal)) (j : Fin 8) :
    lsmK (fun j => ((lr j : ℝ) : EReal)) j
      = ((lr j - (Real.log (∑ k : Fin 8, Real.exp (lr k - m)) + m) : ℝ) : EReal) := by
  rw [lsmK, hm, sumExp_coe, log_coe_pos (sumExp_pos lr m), ← EReal.coe_add, ← EReal.coe_sub]

/-- Second arrangement:  (l j − m) − log s, the sum started from zero. -/
private theorem lsmR_coe (lr : Fin 8 → ℝ) (m : ℝ) (hm : mxK (fun j => ((lr j : ℝ) : EReal)) = (m : EReal)) (j : Fin 8) :
    lsmR (fun j => ((lr j : ℝ) : EReal)) j
      = ((lr j - m - Real.log (∑ k : Fin 8, Real.exp (lr k - m)) : ℝ) : EReal) := by
  rw [lsmR, mxR_eq, hm, sumExp_coe, w0_eq, zero_add, log_coe_pos (sumExp_pos lr m), ← EReal.coe_sub, ← EReal.coe_sub]

/-- The first loss at a real log-probability. -/
private theorem lossK_coe (g : ℝ) :
    lossK (g : EReal) = (((1 - Real.exp g) * (1 - Real.exp g) * (0 - g) : ℝ) : EReal) := by
  rw [lossK, w1_eq, w0_eq, Ideal.exp_coe, ← EReal.coe_one, ← EReal.coe_zero, ← EReal.coe_sub, ← EReal.coe_sub,
    ← EReal.coe_mul, ← EReal.coe_mul]

/-- The second loss at a real log-probability: the real power with exponent 2 is the square. -/
private theorem lossR_coe (g : ℝ) :
    lossR (g : EReal) = (((1 - Real.exp g) * (1 - Real.exp g) * (0 - g) : ℝ) : EReal) := by
  rw [lossR, w1_eq, w2_eq, neg_neg, Ideal.exp_coe, ← EReal.coe_one, ← EReal.coe_sub, Ideal.pow_coe_coe, ← EReal.coe_neg,
    ← EReal.coe_mul, Real.rpow_eq_pow, Real.rpow_two, zero_sub, sq]

/-- On real features, with a real matrix and real offsets, the two arrangements give one loss. -/
theorem row_eq (M : Fin 8 → Fin 3 → EReal) (M' : Fin 3 → Fin 8 → EReal) (b : Fin 8 → EReal)
    (hM : ∀ j k, M j k = M' k j) (hMr : ∀ j k, ∃ r : ℝ, M j k = (r : EReal)) (hbr : ∀ j, ∃ r : ℝ, b j = (r : EReal))
    (x : Fin 3 → EReal) (hx : ∀ k, ∃ r : ℝ, x k = (r : EReal)) (t : BitVec 32) :
    rowK M b x t = rowR M' b x t := by
  choose Mr hMr using hMr
  choose br hbr using hbr
  choose xr hxr using hx
  obtain rfl : M = fun j k => ((Mr j k : ℝ) : EReal) := funext fun j => funext fun k => hMr j k
  obtain rfl : M' = fun k j => ((Mr j k : ℝ) : EReal) := funext fun k => funext fun j => (hM j k).symm
  obtain rfl : b = fun j => ((br j : ℝ) : EReal) := funext hbr
  obtain rfl : x = fun k => ((xr k : ℝ) : EReal) := funext hxr
  -- the logits of both arrangements are the same eight reals
  have hK := funext (logitK_coe Mr br xr)
  have hR := funext (logitR_coe Mr br xr)
  obtain ⟨m, hm⟩ := mxK_coe (fun j => Mr j 0 * xr 0 + Mr j 1 * xr 1 + Mr j 2 * xr 2 + br j)
  -- l − (L + m) = (l − m) − L
  rw [rowK, rowR, hK, hR, lsmK_coe _ m hm, lsmR_coe _ m hm, lossK_coe, lossR_coe, sub_add_eq_sub_sub_swap]

/-! ## All rows -/

/-- Row `lane` of block `i` of half `c`. -/
def rowIx (c : Fin 2) (i : Fin 64) (lane : Fin 65536) : Fin 8388608 :=
  ⟨(c.val * 64 + i.val) * 65536 + lane.val, by have := c.isLt; have := i.isLt; have := lane.isLt; omega⟩

/-- The mean loss, the rows summed block by block. -/
def resK (M : Fin 8 → Fin 3 → EReal) (b : Fin 8 → EReal) (X : Fin 8388608 → Fin 3 → EReal) (T : Fin 8388608 → BitVec 32) : EReal :=
  Ideal.div (w0 + ∑ c : Fin 2, ∑ i : Fin 64, ∑ lane : Fin 65536, rowK M b (X (rowIx c i lane)) (T (rowIx c i lane))) wN

/-- The mean loss, the rows summed in order. -/
def resR (M' : Fin 3 → Fin 8 → EReal) (b : Fin 8 → EReal) (X : Fin 8388608 → Fin 3 → EReal) (T : Fin 8388608 → BitVec 32) : EReal :=
  Ideal.div (w0 + ∑ n : Fin 8388608, rowR M' b (X n) (T n)) wN

end Cert.Focal

end
-- ==== Proof.KPoint.lean ====
/-
  One grid point's arithmetic, read at its one entry.

  The point holds 65536 consecutive rows, lane by lane: the three features of lane n are column n of the 3 × 65536 block x, its
  class word entry n of t; the matrix mm and the offsets bb are the same at every point.  The point adds to the running total
  prev the sum over the lanes of the row loss.  The selection of the row's own log-probability is a sum over the eight classes
  of the log-probability where the class number equals the class word and zero elsewhere; when the word is below 8 exactly one
  class matches.

  The steps, each read at coordinates (class j, lane n).  The logit is mm j 0 · x 0 n + mm j 1 · x 1 n + mm j 2 · x 2 n + bb j:
  a column of the matrix laid along the lanes times a feature row laid along the classes.  The largest logit of a lane is the
  fold of max over the eight classes from −∞; the log-probability of class j is its logit less (log of the sum over the classes
  of exp (logit − largest), plus the largest).  The mask at (j, n) is set exactly when j is the class of lane n's word, so the
  sum over j of "log-probability where set, zero elsewhere" is the log-probability g of the lane's own class, and the lane's
  loss is (1 − eᵍ)(1 − eᵍ)(0 − g).  Summing the losses over the lanes and adding the entry before gives what is stored.
-/
import proofs.«413137_j20409684591021_2_alg».proof.Proof.Gen.KernelIdeal.Skeleton
import proofs.«413137_j20409684591021_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPoint

open Idealize.ShloMosaic Idealize.ShloMosaic.ValueIdx Cert.KernelIdeal Cert.KernelIdeal.Gen

/-! ## The layout operations of this point's shapes, read at coordinates -/

/-- A column of eight entries laid along 65536 lanes reads, at (j, lane), entry j. -/
theorem bcol_at {α : Type} (v : S8x1.Idx → α) (h : S8x1.Broadcasts S8x65536) (j : Fin 8) (lane : Fin 65536) :
    broadcastTo S8x65536 v h (ix2 j lane) = v (ix2 j (0 : Fin 1)) := by
  refine broadcastTo_apply v h (ix2 j lane) (ix2 j (0 : Fin 1)) fun ax => ?_
  match ax with
  | ⟨0, _⟩ => rfl
  | ⟨1, _⟩ => rfl

/-- A row of 65536 lanes laid along eight rows reads, at (j, lane), the row's entry at that lane. -/
theorem brow_at {α : Type} (v : S1x65536.Idx → α) (h : S1x65536.Broadcasts S8x65536) (j : Fin 8) (lane : Fin 65536) :
    broadcastTo S8x65536 v h (ix2 j lane) = v (ix2 (0 : Fin 1) lane) :=
  broadcastTo_1b_ab_apply v h j lane

/-- Row k of the three feature rows. -/
theorem srow_at {α : Type} (o : Nat) (v : S3x65536.Idx → α) (h : S3x65536.Slices ![o, 0] S1x65536) (k : Fin 3)
    (hk : k.val = o) (lane : Fin 65536) :
    extractStridedSlice S1x65536 ![o, 0] v h (ix2 (0 : Fin 1) lane) = v (ix2 k lane) :=
  slice2_axis0_apply o v h (0 : Fin 1) lane k hk

/-- Column k of the 8 × 3 matrix. -/
theorem scol_at {α : Type} (o : Nat) (v : S8x3.Idx → α) (h : S8x3.Slices ![0, o] S8x1) (k : Fin 3)
    (hk : k.val = o) (j : Fin 8) :
    extractStridedSlice S8x1 ![0, o] v h (ix2 j (0 : Fin 1)) = v (ix2 j k) :=
  slice2_axis1_apply o v h j (0 : Fin 1) k hk

/-- A vector of lanes viewed as one row. -/
theorem cast_lane_at {α : Type} (v : S65536.Idx → α) (h : S65536.ShapeCasts S1x65536) (lane : Fin 65536) :
    shapeCast S1x65536 v h (ix2 (0 : Fin 1) lane) = v (ix1 lane) :=
  shapeCast_a_1a_apply v h 0 lane

/-- A one-entry vector viewed as a 1 × 1 matrix. -/
theorem cast_one_at {α : Type} (v : S1.Idx → α) (h : S1.ShapeCasts S1x1) :
    shapeCast S1x1 v h (ix2 (0 : Fin 1) (0 : Fin 1)) = v (ix1 (0 : Fin 1)) :=
  shapeCast_a_1a_apply v h 0 0

/-! ## The reductions -/

/-- Over a lane, the index with class k put back on the reduced axis is (k, lane). -/
theorem lift_col (h : S8x65536.Reduces [0] S65536) (lane : Fin 65536) (k : Fin 8) :
    h.lift (ix1 lane) k = ix2 k lane := by
  funext a
  refine Fin.ext ?_
  match a with
  | ⟨0, _⟩ => rfl
  | ⟨1, _⟩ => rfl

/-- Over the one row, the index with the lane put back on the reduced axis is (0, lane). -/
theorem lift_lane (h : S1x65536.Reduces [1] S1) (lane : Fin 65536) :
    h.lift (ix1 (0 : Fin 1)) lane = ix2 (0 : Fin 1) lane := by
  funext a
  refine Fin.ext ?_
  match a with
  | ⟨0, _⟩ => rfl
  | ⟨1, _⟩ => rfl

/-- The sum over the eight classes, at a lane. -/
theorem sum_col_at (src : FVec Ideal S8x65536 .f32) (h : S8x65536.Reduces [0] S65536) (hφ : FKind.Formats .f32)
    (hacc : (0x00000000#32 : BitVec 32) = FKind.add.neutral .f32 hφ) (lane : Fin 65536) :
    multiReduction .add [0] S65536 src 0x00000000#32 h hφ hacc (ix1 lane) = ∑ k : Fin 8, src (ix2 k lane) :=
  (Ideal.multiReduction_add_single src 0x00000000#32 h hφ hacc (ix1 lane)).trans
    (Finset.sum_congr rfl fun k _ => congrArg src (lift_col h lane k))

/-- The largest of the eight classes' entries, at a lane. -/
theorem max_col_at (src : FVec Ideal S8x65536 .f32) (h : S8x65536.Reduces [0] S65536) (hφ : FKind.Formats .f32)
    (hacc : (0xFF800000#32 : BitVec 32) = FKind.maximumf.neutral .f32 hφ) (lane : Fin 65536) :
    multiReduction .maximumf [0] S65536 src 0xFF800000#32 h hφ hacc (ix1 lane)
      = Cert.Focal.mxK (fun k => src (ix2 k lane)) := by
  refine (Ideal.multiReduction_maximumf_single src 0xFF800000#32 h hφ hacc (ix1 lane)).trans ?_
  have e : (src ∘ h.lift (ix1 lane)) = fun k : Fin 8 => src (ix2 k lane) :=
    funext fun k => congrArg src (lift_col h lane k)
  exact congrArg (fun f : Fin 8 → EReal => (Finset.univ : Finset (Fin 8)).fold max Cert.Focal.wBot f) e

/-- The sum over the lanes of the one row. -/
theorem sum_lane_at (src : FVec Ideal S1x65536 .f32) (h : S1x65536.Reduces [1] S1) (hφ : FKind.Formats .f32)
    (hacc : (0x00000000#32 : BitVec 32) = FKind.add.neutral .f32 hφ) :
    multiReduction .add [1] S1 src 0x00000000#32 h hφ hacc (ix1 (0 : Fin 1))
      = ∑ lane : Fin 65536, src (ix2 (0 : Fin 1) lane) :=
  (Ideal.multiReduction_add_single src 0x00000000#32 h hφ hacc (ix1 (0 : Fin 1))).trans
    (Finset.sum_congr rfl fun k _ => congrArg src (lift_lane h k))

/-! ## The selection of the row's own class -/

/-- A class number equals the class word exactly when it is the word's class. -/
theorem cmp_cls (tw : BitVec 32) (ht : tw.toNat < 8) (k : Fin 8) :
    IntOp.cmpi .eq (BitVec.ofNat 32 k.val) tw = if k = Cert.Focal.cls tw then 1#1 else 0#1 := by
  have hiff : BitVec.ofNat 32 k.val = tw ↔ k = Cert.Focal.cls tw := by
    constructor
    · intro e
      refine Fin.ext ?_
      rw [Cert.Focal.cls_val tw ht, ← e, BitVec.toNat_ofNat]
      exact (Nat.mod_eq_of_lt (by have := k.isLt; omega)).symm
    · intro e
      refine BitVec.eq_of_toNat_eq ?_
      rw [BitVec.toNat_ofNat, e, Cert.Focal.cls_val tw ht]
      exact Nat.mod_eq_of_lt (by omega)
  by_cases hk : k = Cert.Focal.cls tw
  · rw [if_pos hk]
    show BitVec.ofBool (BitVec.ofNat 32 k.val == tw) = 1#1
    rw [hiff.mpr hk, beq_self_eq_true]
    rfl
  · rw [if_neg hk]
    show BitVec.ofBool (BitVec.ofNat 32 k.val == tw) = 0#1
    rw [beq_false_of_ne (fun e => hk (hiff.mp e))]
    rfl

/-- The sum over the classes of "f k where k is the word's class, zero elsewhere" is f at the word's class. -/
theorem own_sum (tw : BitVec 32) (ht : tw.toNat < 8) (f : Fin 8 → EReal) :
    ∑ k : Fin 8, Scalar.select (IntOp.cmpi .eq (BitVec.ofNat 32 k.val) tw) (f k) Cert.Focal.w0
      = f (Cert.Focal.cls tw) := by
  rw [Finset.sum_eq_single (Cert.Focal.cls tw)]
  · rw [cmp_cls tw ht, if_pos rfl]
    exact select_one _ _
  · intro k _ hk
    rw [cmp_cls tw ht, if_neg hk, select_zero]
    exact Cert.Focal.w0_eq
  · intro h
    exact absurd (Finset.mem_univ _) h

/-- The mask at (k, lane): class number k against lane's class word. -/
theorem pay4_at (t : Vec Ideal S1x65536 .i32) (k : Fin 8) (lane : Fin 65536) :
    k0_pay4 (F := Ideal) t (ix2 k lane) = IntOp.cmpi .eq (BitVec.ofNat 32 k.val) (t (ix2 0 lane)) := by
  unfold k0_pay4
  show IntOp.cmpi .eq (iota .tc S8x65536 32 [0] iota_S8x65536_d0_w32 (ix2 k lane))
      (broadcastTo S8x65536 (shapeCast S1x65536 t shapeCasts_S1x65536_S1x65536) broadcasts_S1x65536_S8x65536 (ix2 k lane)) = _
  rw [iota_single_apply, brow_at, shapeCast_self]

/-- The zero block. -/
theorem pay5_at (k : Fin 8) (lane : Fin 65536) : k0_pay5 (F := Ideal) (ix2 k lane) = Cert.Focal.w0 := rfl

/-! ## The log-probabilities of every lane -/

/-- The exponential is taken entry by entry … -/
theorem exp_at {s : Shape} {φ : FTy} (v : FVec Ideal s φ) (i : s.Idx) : exp v i = Ideal.exp (v i) := rfl
/-- … and so is the logarithm. -/
theorem log_at {s : Shape} {φ : FTy} (v : FVec Ideal s φ) (i : s.Idx) : log v i = Ideal.log (v i) := rfl

/-- The eight logits of every lane: the matrix's three columns against the three feature rows, the products added left
    to right, the offsets last. -/
def lgV (x : Vec Ideal S3x65536 .f32) (mm : Vec Ideal S8x3 .f32) (bb : Vec Ideal S8x1 .f32) : FVec Ideal S8x65536 .f32 :=
  have xs : FVec Ideal S3x65536 .f32 := shapeCast S3x65536 x shapeCasts_S3x65536_S3x65536
  have x0 : FVec Ideal S1x65536 .f32 := extractStridedSlice S1x65536 ![0, 0] xs slices_S3x65536_o0_0_S1x65536
  have x1 : FVec Ideal S1x65536 .f32 := extractStridedSlice S1x65536 ![1, 0] xs slices_S3x65536_o1_0_S1x65536
  have x2 : FVec Ideal S1x65536 .f32 := extractStridedSlice S1x65536 ![2, 0] xs slices_S3x65536_o2_0_S1x65536
  have m0 : FVec Ideal S8x1 .f32 := extractStridedSlice S8x1 ![0, 0] mm slices_S8x3_o0_0_S8x1
  have m1 : FVec Ideal S8x1 .f32 := extractStridedSlice S8x1 ![0, 1] mm slices_S8x3_o0_1_S8x1
  have m2 : FVec Ideal S8x1 .f32 := extractStridedSlice S8x1 ![0, 2] mm slices_S8x3_o0_2_S8x1
  addf
    (addf
      (addf
        (mulf (broadcastTo S8x65536 m0 broadcasts_S8x1_S8x65536) (broadcastTo S8x65536 x0 broadcasts_S1x65536_S8x65536))
        (mulf (broadcastTo S8x65536 m1 broadcasts_S8x1_S8x65536) (broadcastTo S8x65536 x1 broadcasts_S1x65536_S8x65536)))
      (mulf (broadcastTo S8x65536 m2 broadcasts_S8x1_S8x65536) (broadcastTo S8x65536 x2 broadcasts_S1x65536_S8x65536)))
    (broadcastTo S8x65536 (shapeCast S8x1 bb shapeCasts_S8x1_S8x1) broadcasts_S8x1_S8x65536)

/-- The largest of a lane's eight entries, lane by lane, as one row. -/
def mxV (l : FVec Ideal S8x65536 .f32) : FVec Ideal S1x65536 .f32 :=
  shapeCast S1x65536 (multiReduction .maximumf [0] S65536 l 0xFF800000#32 reduces_S8x65536_S65536 (.inl rfl) rfl)
    shapeCasts_S65536_S1x65536

/-- The sum over the classes of the exponentials of the entries less the largest, as one row. -/
def seV (l : FVec Ideal S8x65536 .f32) : FVec Ideal S1x65536 .f32 :=
  shapeCast S1x65536
    (multiReduction .add [0] S65536 (exp (subf l (broadcastTo S8x65536 (mxV l) broadcasts_S1x65536_S8x65536)))
      0x00000000#32 reduces_S8x65536_S65536 (.inl rfl) rfl)
    shapeCasts_S65536_S1x65536

/-- The log-probabilities: each entry less (the logarithm of that sum, plus the largest). -/
def lsmV (l : FVec Ideal S8x65536 .f32) : FVec Ideal S8x65536 .f32 :=
  subf l (broadcastTo S8x65536 (addf (log (seV l)) (mxV l)) broadcasts_S1x65536_S8x65536)

/-- The block of log-probabilities is these steps one after the other. -/
theorem pay3_eq (x : Vec Ideal S3x65536 .f32) (mm : Vec Ideal S8x3 .f32) (bb : Vec Ideal S8x1 .f32) :
    k0_pay3 x mm bb = lsmV (lgV x mm bb) := rfl

/-- The logits at (j, lane): row j of the matrix against lane's three features, plus offset j. -/
theorem lgV_at (x : Vec Ideal S3x65536 .f32) (mm : Vec Ideal S8x3 .f32) (bb : Vec Ideal S8x1 .f32)
    (j : Fin 8) (lane : Fin 65536) :
    lgV x mm bb (ix2 j lane)
      = Cert.Focal.logitK (fun j k => mm (ix2 j k)) (fun j => bb (ix2 j 0)) (fun k => x (ix2 k lane)) j := by
  show lgV x mm bb (ix2 j lane)
      = mm (ix2 j 0) * x (ix2 0 lane) + mm (ix2 j 1) * x (ix2 1 lane) + mm (ix2 j 2) * x (ix2 2 lane) + bb (ix2 j 0)
  unfold lgV
  simp only [addf_apply, mulf_apply, bcol_at, brow_at, shapeCast_self,
    srow_at 0 _ _ (0 : Fin 3) rfl, srow_at 1 _ _ (1 : Fin 3) rfl, srow_at 2 _ _ (2 : Fin 3) rfl,
    scol_at 0 _ _ (0 : Fin 3) rfl, scol_at 1 _ _ (1 : Fin 3) rfl, scol_at 2 _ _ (2 : Fin 3) rfl]

/-- The row of largest entries at a lane: the fold of max over the lane's eight entries. -/
theorem mxV_at (l : FVec Ideal S8x65536 .f32) (lane : Fin 65536) :
    mxV l (ix2 0 lane) = Cert.Focal.mxK (fun k => l (ix2 k lane)) := by
  unfold mxV
  exact (cast_lane_at _ _ lane).trans (max_col_at l _ _ _ lane)

/-- The row of sums at a lane: the sum over the classes of exp (entry − largest). -/
theorem seV_at (l : FVec Ideal S8x65536 .f32) (lane : Fin 65536) :
    seV l (ix2 0 lane)
      = ∑ k : Fin 8, Ideal.exp (l (ix2 k lane) - Cert.Focal.mxK (fun k => l (ix2 k lane))) := by
  unfold seV
  refine (cast_lane_at _ _ lane).trans ((sum_col_at _ _ _ _ lane).trans ?_)
  refine Finset.sum_congr rfl fun k _ => ?_
  rw [exp_at, subf_apply, brow_at, mxV_at]

/-- The log-probabilities at (j, lane): those of the lane's eight entries, at class j. -/
theorem lsmV_at (l : FVec Ideal S8x65536 .f32) (j : Fin 8) (lane : Fin 65536) :
    lsmV l (ix2 j lane) = Cert.Focal.lsmK (fun k => l (ix2 k lane)) j := by
  unfold lsmV
  rw [subf_apply, brow_at, addf_apply, log_at, seV_at, mxV_at]
  rfl

/-- The block of log-probabilities at (j, lane): class j's log-probability of lane's row. -/
theorem pay3_at (x : Vec Ideal S3x65536 .f32) (mm : Vec Ideal S8x3 .f32) (bb : Vec Ideal S8x1 .f32)
    (j : Fin 8) (lane : Fin 65536) :
    k0_pay3 x mm bb (ix2 j lane)
      = Cert.Focal.lsmK (Cert.Focal.logitK (fun j k => mm (ix2 j k)) (fun j => bb (ix2 j 0)) (fun k => x (ix2 k lane))) j := by
  rw [pay3_eq, lsmV_at]
  exact congrArg (fun l => Cert.Focal.lsmK l j) (funext fun k => lgV_at x mm bb k lane)

/-! ## The losses and their sum -/

/-- The row's own log-probability, lane by lane: the sum over the classes of the log-probability where the mask is set,
    the third block elsewhere. -/
def ownV (lp : FVec Ideal S8x65536 .f32) (mask : IVec S8x65536 1) (z : FVec Ideal S8x65536 .f32) : FVec Ideal S1x65536 .f32 :=
  shapeCast S1x65536
    (multiReduction .add [0] S65536 (select mask lp z) 0x00000000#32 reduces_S8x65536_S65536 (.inl rfl) rfl)
    shapeCasts_S65536_S1x65536

/-- The loss of every lane from its own log-probability g: (1 − eᵍ)(1 − eᵍ)(0 − g). -/
def lossV (g : FVec Ideal S1x65536 .f32) : FVec Ideal S1x65536 .f32 :=
  have q : FVec Ideal S1x65536 .f32 := subf (broadcast S1x65536 (Scalar.ofBits (F := Ideal) .f32 0x3F800000#32)) (exp g)
  mulf (mulf q q) (subf (broadcast S1x65536 (Scalar.ofBits (F := Ideal) .f32 0x00000000#32)) g)

/-- The entry before plus the sum of a row of losses over its lanes. -/
def totV (ls : FVec Ideal S1x65536 .f32) (prev : Vec Ideal S1x1 .f32) : FVec Ideal S1x1 .f32 :=
  addf (shapeCast S1x1 prev shapeCasts_S1x1_S1x1)
    (shapeCast S1x1 (multiReduction .add [1] S1 ls 0x00000000#32 reduces_S1x65536_S1 (.inl rfl) rfl) shapeCasts_S1_S1x1)

/-- What the point stores is these steps one after the other. -/
theorem pay1_eq (lp : FVec Ideal S8x65536 .f32) (mask : IVec S8x65536 1) (z : FVec Ideal S8x65536 .f32) (prev : Vec Ideal S1x1 .f32) :
    k0_pay1 lp mask z prev = totV (lossV (ownV lp mask z)) prev := rfl

/-- The selected row at a lane: the sum over the classes of the masked entries. -/
theorem ownV_at (lp : FVec Ideal S8x65536 .f32) (mask : IVec S8x65536 1) (z : FVec Ideal S8x65536 .f32) (lane : Fin 65536) :
    ownV lp mask z (ix2 0 lane)
      = ∑ k : Fin 8, Scalar.select (mask (ix2 k lane)) (lp (ix2 k lane)) (z (ix2 k lane)) := by
  unfold ownV
  exact (cast_lane_at _ _ lane).trans (sum_col_at _ _ _ _ lane)

/-- The row of losses at a lane: the loss of that lane's own log-probability. -/
theorem lossV_at (g : FVec Ideal S1x65536 .f32) (lane : Fin 65536) :
    lossV g (ix2 0 lane) = Cert.Focal.lossK (g (ix2 0 lane)) := by
  unfold lossV
  simp only [mulf_apply, subf_apply, broadcast_apply, exp_at]
  rfl

/-- The stored entry: the entry before plus the sum of the row over the lanes. -/
theorem totV_at (ls : FVec Ideal S1x65536 .f32) (prev : Vec Ideal S1x1 .f32) :
    totV ls prev (ix2 0 0) = prev (ix2 0 0) + ∑ lane : Fin 65536, ls (ix2 0 lane) := by
  unfold totV
  rw [addf_apply, shapeCast_self, cast_one_at]
  exact congrArg (prev (ix2 0 0) + ·) (sum_lane_at _ _ _ _)

/-- What a point stores at its one entry: the entry before, plus the lane sum of the row losses. -/
theorem pay_at (x : Vec Ideal S3x65536 .f32) (t : Vec Ideal S1x65536 .i32) (mm : Vec Ideal S8x3 .f32) (bb : Vec Ideal S8x1 .f32)
    (prev : Vec Ideal S1x1 .f32) (hT : ∀ lane : Fin 65536, (t (ix2 0 lane) : BitVec 32).toNat < 8) :
    k0_pay1 (F := Ideal) (k0_pay3 x mm bb) (k0_pay4 (F := Ideal) t) (k0_pay5 (F := Ideal)) prev (ix2 0 0)
      = prev (ix2 0 0) + ∑ lane : Fin 65536,
          Cert.Focal.rowK (fun j k => mm (ix2 j k)) (fun j => bb (ix2 j 0)) (fun k => x (ix2 k lane)) (t (ix2 0 lane)) := by
  rw [pay1_eq, totV_at]
  refine congrArg (prev (ix2 0 0) + ·) (Finset.sum_congr rfl fun lane _ => ?_)
  rw [lossV_at, ownV_at]
  unfold Cert.Focal.rowK
  refine congrArg Cert.Focal.lossK ?_
  rw [Finset.sum_congr rfl fun k _ => by rw [pay4_at, pay3_at, pay5_at]]
  exact own_sum (t (ix2 0 lane)) (hT lane) _

end Cert.KernelIdeal.KPoint

end
-- ==== Proof.KCaseA.lean ====
/-
  The first point of a run: the body clears the whole 8 × 128 output block, reads entry (0, 0) back (zero) and stores there that
  zero plus the lane sum of the point's row losses.  So the block ends zero except at (0, 0), where it holds the lane sum.
-/
import proofs.«413137_j20409684591021_2_alg».proof.Proof.Gen.KernelIdeal.Frame
import proofs.«413137_j20409684591021_2_alg».proof.Proof.KPoint
import Idealize.ShloMosaic.Lib.Pipeline.Value
import Idealize.ShloMosaic.Lib.WritesUnit
import Idealize.ShloMosaic.Lib.Tactic

noncomputable section

namespace Cert.KernelIdeal.KValue

open Idealize.ShloMosaic Idealize.ShloMosaic.TcCoe Idealize.ShloMosaic.ValueIdx Idealize.SL.Sem
open Cert.KernelIdeal Cert.KernelIdeal.Gen

/-- The zero offsets, however they are spelt. -/
private theorem hzA : (![0, 0] : Fin 2 → Nat) = fun _ => 0 := funext fun a => match a with | ⟨0, _⟩ => rfl | ⟨1, _⟩ => rfl

/-- An entry of the block other than the corner has a nonzero coordinate. -/
private theorem off_cornerA (idx : S8x128.Idx) (h : idx ≠ ix2 0 0) : (idx 0).val ≠ 0 ∨ (idx 1).val ≠ 0 := by
  by_contra hn
  have h0 : (idx 0).val = 0 := by omega
  have h1 : (idx 1).val = 0 := by omega
  apply h
  funext a
  match a with
  | ⟨0, _⟩ => exact Fin.ext h0
  | ⟨1, _⟩ => exact Fin.ext h1

/-- The zero block stored over the whole buffer reads back as zero at every entry, whatever the buffer held. -/
private theorem zero_read {sg : RefSig} {κ : Kind} {sp : Space} (v : View sg κ sp S8x128 .f32) (f : v.ty.Contents (Elt Ideal))
    (idx : S8x128.Idx) :
    v.read (Elt Ideal) (v.writes (Elt Ideal) f
      [(⟨Rect.unit ![0, 0] S8x128.size inb_S8x128_S8x128_0_0, k0_pay2 (F := Ideal)⟩ : View.Piece (Elt Ideal) S8x128 .f32)]) idx = 0 :=
  (View.read_writes_cons_unit_of_mem v f inb_S8x128_S8x128_0_0 (k0_pay2 (F := Ideal)) [] idx idx rfl
    (fun a => match a with | ⟨0, _⟩ => (Nat.zero_add _).symm | ⟨1, _⟩ => (Nat.zero_add _).symm)).trans Ideal.ofBits_zero_f32

/-- What the first point of a run leaves in the output block. -/
theorem out_A_at (c : Dev nD) (i : grid0.Coords)
    (a2 : Memref sig .tc .vmem S3x65536 .f32) (h2 : a2.IsWhole) (a3 : Memref sig .tc .vmem S1x65536 .i32) (h3 : a3.IsWhole)
    (a4 : Memref sig .tc .vmem S8x3 .f32) (h4 : a4.IsWhole) (a5 : Memref sig .tc .vmem S8x1 .f32) (h5 : a5.IsWhole)
    (a6 : Memref sig .tc .vmem S8x128 .f32) (h6 : a6.IsWhole) (hc : cond0_0 i)
    (x0 : Vec Ideal S3x65536 .f32) (x1 : Vec Ideal S1x65536 .i32) (x2 : Vec Ideal S8x3 .f32) (x3 : Vec Ideal S8x1 .f32)
    (hT : ∀ lane : Fin 65536, (x1 (ix2 0 lane) : BitVec 32).toNat < 8) :
    out0_A_4 (F := Ideal) c i a2 h2 a3 h3 a4 h4 a5 h5 a6 h6 hc x0 x1 x2 x3
      = fun idx : S8x128.Idx => if idx = ix2 0 0 then
          ∑ lane : Fin 65536, Cert.Focal.rowK (fun j k => x2 (ix2 j k)) (fun j => x3 (ix2 j 0))
            (fun k => x0 (ix2 k lane)) (x1 (ix2 0 lane))
        else 0 := by
  funext idx
  unfold out0_A_4
  unfold kernelRun0_A
  dsimp only
  sl_unfold_words
  by_cases hi : idx = ix2 0 0
  · subst hi
    rw [if_pos rfl]
    refine (View.read_writes_cons_unit_of_mem VO0_4 VO0_4.junk inb_S8x128_S1x1_0_0 _ _ (ix2 0 0) (ix2 0 0) rfl
      (fun a => match a with | ⟨0, _⟩ => rfl | ⟨1, _⟩ => rfl)).trans ?_
    simp only [View.readAt_eq_ld, h2.read_unread, h3.read_unread, h4.read_unread, h5.read_unread,
      View.ld_unit_zero (S := S3x65536) hzA, View.ld_unit_zero (S := S1x65536) hzA, View.ld_unit_zero (S := S8x3) hzA,
      View.ld_unit_zero (S := S8x1) hzA]
    refine (KPoint.pay_at x0 x1 x2 x3 _ hT).trans ?_
    have e : a6.view.readCov
        [(⟨Rect.unit ![0, 0] S8x128.size inb_S8x128_S8x128_0_0, k0_pay2 (F := Ideal)⟩ : View.Piece (Elt Ideal) S8x128 .f32)]
        (Rect.unit (s := S8x128) ![0, 0] ![1, 1] inb_S8x128_S1x1_0_0).toLoadRect (ix2 0 0) = 0 :=
      zero_read a6.view a6.view.junk ((Rect.unit (s := S8x128) ![0, 0] ![1, 1] inb_S8x128_S1x1_0_0).idx (ix2 0 0))
    rw [e, zero_add]
  · rw [if_neg hi]
    rcases off_cornerA idx hi with h0 | h1
    · refine (View.read_writes_cons_unit_of_not_mem VO0_4 VO0_4.junk inb_S8x128_S1x1_0_0 _ _ idx rfl 0
        (Or.inr ?_)).trans (zero_read VO0_4 VO0_4.junk idx)
      show 0 + 1 ≤ (idx 0).val
      omega
    · refine (View.read_writes_cons_unit_of_not_mem VO0_4 VO0_4.junk inb_S8x128_S1x1_0_0 _ _ idx rfl 1
        (Or.inr ?_)).trans (zero_read VO0_4 VO0_4.junk idx)
      show 0 + 1 ≤ (idx 1).val
      omega

end Cert.KernelIdeal.KValue

end
-- ==== Proof.KCaseB.lean ====
/-
  A later point of a run: the body reads entry (0, 0) of what the point before left in the 8 × 128 output block and stores there
  that entry plus the lane sum of the point's row losses; every other entry stays.

  The point's one store goes through the 1 × 1 rectangle at the corner (0, 0), over the contents the point before left.  Read
  back at the corner it gives the stored value: the point's arithmetic applied to the four input blocks (each loaded whole) and
  to the 1 × 1 load of the corner, which is the corner entry of the old contents.  Read back at any other index, one of whose
  coordinates is then at least 1 and so outside the rectangle, it gives the old contents.
-/
import proofs.«413137_j20409684591021_2_alg».proof.Proof.Gen.KernelIdeal.Frame
import proofs.«413137_j20409684591021_2_alg».proof.Proof.KPoint
import Idealize.ShloMosaic.Lib.Pipeline.Value
import Idealize.ShloMosaic.Lib.WritesUnit
import Idealize.ShloMosaic.Lib.Tactic

noncomputable section

namespace Cert.KernelIdeal.KValue

open Idealize.ShloMosaic Idealize.ShloMosaic.TcCoe Idealize.ShloMosaic.ValueIdx Idealize.SL.Sem
open Cert.KernelIdeal Cert.KernelIdeal.Gen

namespace CaseB

/-- The offsets (0, 0) are zero on both axes. -/
theorem zero_offsets : (![0, 0] : Fin 2 → Nat) = fun _ => 0 :=
  funext fun a => match a with | ⟨0, _⟩ => rfl | ⟨1, _⟩ => rfl

/-- An index of the 8 × 128 block other than the corner has a nonzero coordinate. -/
theorem off_corner (idx : S8x128.Idx) (h : idx ≠ ix2 0 0) : (idx 0).val ≠ 0 ∨ (idx 1).val ≠ 0 := by
  by_contra hn
  have h0 : (idx 0).val = 0 := by omega
  have h1 : (idx 1).val = 0 := by omega
  apply h
  funext a
  match a with
  | ⟨0, _⟩ => exact Fin.ext h0
  | ⟨1, _⟩ => exact Fin.ext h1

/-- The one index of the 1 × 1 rectangle at the corner is the corner of the block. -/
theorem corner_idx : (Rect.unit (s := S8x128) ![0, 0] ![1, 1] inb_S8x128_S1x1_0_0).idx (ix2 0 0) = (ix2 0 0 : S8x128.Idx) :=
  funext fun a => match a with | ⟨0, _⟩ => rfl | ⟨1, _⟩ => rfl

end CaseB

/-- What a later point of a run leaves in the output block, over the contents `xo` the point before left. -/
theorem out_B_at (c : Dev nD) (i : grid0.Coords)
    (a2 : Memref sig .tc .vmem S3x65536 .f32) (h2 : a2.IsWhole) (a3 : Memref sig .tc .vmem S1x65536 .i32) (h3 : a3.IsWhole)
    (a4 : Memref sig .tc .vmem S8x3 .f32) (h4 : a4.IsWhole) (a5 : Memref sig .tc .vmem S8x1 .f32) (h5 : a5.IsWhole)
    (a6 : Memref sig .tc .vmem S8x128 .f32) (h6 : a6.IsWhole) (hc : ¬cond0_0 i)
    (x0 : Vec Ideal S3x65536 .f32) (x1 : Vec Ideal S1x65536 .i32) (x2 : Vec Ideal S8x3 .f32) (x3 : Vec Ideal S8x1 .f32)
    (xo : Vec Ideal S8x128 .f32) (hT : ∀ lane : Fin 65536, (x1 (ix2 0 lane) : BitVec 32).toNat < 8) :
    out0_B_4 (F := Ideal) c i a2 h2 a3 h3 a4 h4 a5 h5 a6 h6 hc x0 x1 x2 x3 xo
      = fun idx : S8x128.Idx => if idx = ix2 0 0 then
          xo (ix2 0 0) + ∑ lane : Fin 65536, Cert.Focal.rowK (fun j k => x2 (ix2 j k)) (fun j => x3 (ix2 j 0))
            (fun k => x0 (ix2 k lane)) (x1 (ix2 0 lane))
        else xo idx := by
  funext idx
  unfold out0_B_4
  unfold kernelRun0_B
  dsimp only
  sl_unfold_words
  by_cases hi : idx = ix2 0 0
  · -- at the corner: the stored value
    subst hi
    rw [if_pos rfl]
    refine (View.read_writes_cons_unit_of_mem a6.view (h6.unread xo) inb_S8x128_S1x1_0_0 _ [] (ix2 0 0) (ix2 0 0) rfl
      (fun a => match a with | ⟨0, _⟩ => rfl | ⟨1, _⟩ => rfl)).trans ?_
    simp only [View.readAt_eq_ld, h2.read_unread, h3.read_unread, h4.read_unread, h5.read_unread, h6.read_unread,
      View.ld_unit_zero (S := S3x65536) CaseB.zero_offsets, View.ld_unit_zero (S := S1x65536) CaseB.zero_offsets,
      View.ld_unit_zero (S := S8x3) CaseB.zero_offsets, View.ld_unit_zero (S := S8x1) CaseB.zero_offsets]
    refine (KPoint.pay_at x0 x1 x2 x3 _ hT).trans ?_
    exact congrArg (fun z => xo z + ∑ lane : Fin 65536, Cert.Focal.rowK (fun j k => x2 (ix2 j k)) (fun j => x3 (ix2 j 0))
      (fun k => x0 (ix2 k lane)) (x1 (ix2 0 lane))) CaseB.corner_idx
  · -- elsewhere: a coordinate is at least 1, outside the 1 × 1 rectangle, and the old contents are read
    rw [if_neg hi]
    rcases CaseB.off_corner idx hi with h0 | h1
    · refine (View.read_writes_cons_unit_of_not_mem a6.view (h6.unread xo) inb_S8x128_S1x1_0_0 _ [] idx rfl 0
        (Or.inr ?_)).trans ?_
      · show 0 + 1 ≤ (idx 0).val
        omega
      · rw [View.writes_nil, h6.read_unread]
    · refine (View.read_writes_cons_unit_of_not_mem a6.view (h6.unread xo) inb_S8x128_S1x1_0_0 _ [] idx rfl 1
        (Or.inr ?_)).trans ?_
      · show 0 + 1 ≤ (idx 1).val
        omega
      · rw [View.writes_nil, h6.read_unread]

end Cert.KernelIdeal.KValue

end
-- ==== Proof.KOuts.lean ====
/-
  What the output block holds as the grid is walked.

  The 128 points are two runs of 64.  The first point of a run clears the 8 × 128 output block and then adds its lane sum to
  entry (0, 0); every later point of the run adds its lane sum to entry (0, 0) of what the point before left.  So after the
  last point of run k the block is zero except at (0, 0), where it holds the sum of the 64 lane sums of that run.
-/
import proofs.«413137_j20409684591021_2_alg».proof.Proof.Gen.KernelIdeal.Frame
import proofs.«413137_j20409684591021_2_alg».proof.Proof.KPoint
import proofs.«413137_j20409684591021_2_alg».proof.Proof.KCaseA
import proofs.«413137_j20409684591021_2_alg».proof.Proof.KCaseB
import Idealize.ShloMosaic.Lib.Pipeline.Value
import Idealize.ShloMosaic.Lib.Tactic

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The four input blocks of a point, at their literal types. -/
abbrev xblk (c : Dev nD) (t : Fin cfg0.N) : Vec Ideal S3x65536 .f32 := iblk m c 0 t
abbrev tblk (c : Dev nD) (t : Fin cfg0.N) : Vec Ideal S1x65536 .i32 := iblk m c 1 t
abbrev mblk (c : Dev nD) (t : Fin cfg0.N) : Vec Ideal S8x3 .f32 := iblk m c 2 t
abbrev bblk (c : Dev nD) (t : Fin cfg0.N) : Vec Ideal S8x1 .f32 := iblk m c 3 t

/-- Every class word of every block is below 8. -/
def TOk (c : Dev nD) : Prop :=
  ∀ (t : Fin cfg0.N) (lane : Fin 65536), (tblk m c t (ix2 0 lane) : BitVec 32).toNat < 8

/-- The lane sum of point `t`: the row losses of its 65536 rows. -/
def bsum (c : Dev nD) (t : Fin cfg0.N) : EReal :=
  ∑ lane : Fin 65536, Cert.Focal.rowK (fun j k => mblk m c t (ix2 j k)) (fun j => bblk m c t (ix2 j 0))
    (fun k => xblk m c t (ix2 k lane)) (tblk m c t (ix2 0 lane))

/-- Point `i` of run `k`. -/
def pt (k : Fin 2) (i : Fin 64) : Fin cfg0.N :=
  ⟨64 * k.val + i.val, by have := k.isLt; have := i.isLt; rw [show cfg0.N = 128 from N_0]; omega⟩

namespace Run

/-- The lane sum of the point numbered `n`; zero past the last point. -/
def bsumAt (c : Dev nD) (n : ℕ) : EReal := if h : n < cfg0.N then bsum m c ⟨n, h⟩ else 0

theorem bsumAt_of_lt (c : Dev nD) (n : ℕ) (h : n < cfg0.N) : bsumAt m c n = bsum m c ⟨n, h⟩ := dif_pos h

/-- Inside run `k`: after its point `i` the block is zero except at (0, 0), where it holds the lane sums of the run's points
    0 … i.  Point 0 clears the block and stores its lane sum; point i + 1 adds its lane sum to what point i left. -/
theorem outs_run (c : Dev nD) (hT : TOk m c) (k : ℕ) :
    ∀ (i : ℕ), i < 64 → ∀ (n : ℕ) (h : n < cfg0.N), n = 64 * k + i →
      outsAt0 m c n h = fun idx : S8x128.Idx =>
        if idx = ix2 0 0 then ∑ i' ∈ Finset.range (i + 1), bsumAt m c (64 * k + i') else 0
  | 0, _, n, h, hn => by
    subst hn
    have hA : (⟨64 * k + 0, h⟩ : Fin cfg0.N).val % 64 = 0 := by show (64 * k + 0) % 64 = 0; omega
    rw [outsAt0_A m c ⟨64 * k + 0, h⟩ hA]
    refine (out_A_at c (grid0.coords ⟨64 * k + 0, h⟩) (ms0_0 ⟨64 * k + 0, h⟩) (hs0_0 ⟨64 * k + 0, h⟩) (ms0_1 ⟨64 * k + 0, h⟩) (hs0_1 ⟨64 * k + 0, h⟩) (ms0_2 ⟨64 * k + 0, h⟩) (hs0_2 ⟨64 * k + 0, h⟩) (ms0_3 ⟨64 * k + 0, h⟩) (hs0_3 ⟨64 * k + 0, h⟩) (ms0_4 ⟨64 * k + 0, h⟩) (hs0_4 ⟨64 * k + 0, h⟩) ((hcond0_0 ⟨64 * k + 0, h⟩).mpr hA)
      (xblk m c ⟨64 * k + 0, h⟩) (tblk m c ⟨64 * k + 0, h⟩) (mblk m c ⟨64 * k + 0, h⟩) (bblk m c ⟨64 * k + 0, h⟩) (hT ⟨64 * k + 0, h⟩)).trans ?_
    funext idx
    rw [Finset.sum_range_one, bsumAt_of_lt m c _ h]
    rfl
  | i + 1, hi, n, h, hn => by
    subst hn
    have hlt : 64 * k + (i + 1) - 1 < cfg0.N := lt_of_le_of_lt (Nat.sub_le _ _) h
    have hB : ¬(⟨64 * k + (i + 1), h⟩ : Fin cfg0.N).val % 64 = 0 := by show ¬(64 * k + (i + 1)) % 64 = 0; omega
    rw [outsAt0_B m c ⟨64 * k + (i + 1), h⟩ hB]
    dsimp only
    refine (out_B_at c (grid0.coords ⟨64 * k + (i + 1), h⟩) (ms0_0 ⟨64 * k + (i + 1), h⟩) (hs0_0 ⟨64 * k + (i + 1), h⟩) (ms0_1 ⟨64 * k + (i + 1), h⟩) (hs0_1 ⟨64 * k + (i + 1), h⟩) (ms0_2 ⟨64 * k + (i + 1), h⟩) (hs0_2 ⟨64 * k + (i + 1), h⟩) (ms0_3 ⟨64 * k + (i + 1), h⟩) (hs0_3 ⟨64 * k + (i + 1), h⟩) (ms0_4 ⟨64 * k + (i + 1), h⟩) (hs0_4 ⟨64 * k + (i + 1), h⟩) (fun hh => hB ((hcond0_0 ⟨64 * k + (i + 1), h⟩).mp hh))
      (xblk m c ⟨64 * k + (i + 1), h⟩) (tblk m c ⟨64 * k + (i + 1), h⟩) (mblk m c ⟨64 * k + (i + 1), h⟩) (bblk m c ⟨64 * k + (i + 1), h⟩) (outsAt0 m c (64 * k + (i + 1) - 1) hlt) (hT ⟨64 * k + (i + 1), h⟩)).trans ?_
    rw [outs_run c hT k i (by omega) (64 * k + (i + 1) - 1) hlt (by omega)]
    funext idx
    by_cases hidx : idx = ix2 0 0
    · rw [if_pos hidx, if_pos hidx]
      dsimp only
      rw [if_pos rfl, Finset.sum_range_succ _ (i + 1), bsumAt_of_lt m c _ h]
      rfl
    · rw [if_neg hidx, if_neg hidx]
      dsimp only
      rw [if_neg hidx]

end Run

/-- After the last point of run `k` the output block is the run's total at (0, 0) and zero elsewhere. -/
theorem outs_last (c : Dev nD) (hT : TOk m c) (k : Fin 2) :
    outsAt0 m c (pt k 63).val (pt k 63).isLt
      = fun idx : S8x128.Idx => if idx = ix2 0 0 then ∑ i : Fin 64, bsum m c (pt k i) else 0 := by
  rw [Run.outs_run m c hT k.val 63 (by omega) (pt k 63).val (pt k 63).isLt rfl]
  funext idx
  by_cases hidx : idx = ix2 0 0
  · rw [if_pos hidx, if_pos hidx, Finset.sum_range (fun i' => Run.bsumAt m c (64 * k.val + i'))]
    exact Finset.sum_congr rfl fun i _ => Run.bsumAt_of_lt m c _ (pt k i).isLt
  · rw [if_neg hidx, if_neg hidx]

end Cert.KernelIdeal.KValue

end
-- ==== Proof.KBlocks.lean ====
/-
  The input blocks of a point, read off the two arguments and the two constant tables.

  Point i of run k stages columns (64 k + i) · 65536 … of the transposed features and of the class row, so lane n of the point is
  row (64 k + i) · 65536 + n of the arguments; the matrix and the offsets are staged whole at every point, and they are the
  constant tables (the offsets recast from a vector to a column).

  Two steps.  First, what each staged array holds when the grid starts: the features transposed to 3 × 8388608, the class
  words as a 1 × 8388608 row, the 8 × 3 table as it is written, the 8 offsets as an 8 × 1 column.  Second, where a block sits
  in its array: entry y of the block with block index b and block extents e is the array's entry b · e + y on every axis.  The
  two long arrays are cut along their second axis with block index equal to the point's number (first axis: index 0); the
  two tables are one block, index (0, 0).  Composing the two steps with the transpose (entry (kk, r) is the argument's (r, kk))
  and the two recasts (same row-major position) gives the four statements.
-/
import proofs.«413137_j20409684591021_2_alg».proof.Proof.Gen.KernelIdeal.Frame
import proofs.«413137_j20409684591021_2_alg».proof.Proof.KOuts
import Idealize.ShloMosaic.Lib.Pipeline.Value
import Idealize.ShloMosaic.Lib.ValueLayout
import Idealize.ShloMosaic.Lib.StableHlo.Run

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

namespace Blocks

/-! ## What the staged arrays hold when the grid starts -/

/-- The feature array, transposed: 3 rows of 8388608. -/
theorem V_features (c : Dev nD) : (V m c main_v0 : S3x8388608.Idx → EReal)
    = transpose S3x8388608 [1, 0] (m (c.tc.loc main_arg0)) transposes_S8388608x3_S3x8388608_1_0 := by
  show StableHlo.after hostOps0 (fun b => m (c, b)) (Proc.devRef .tc main_v0) = _
  after_results

/-- The class words, as one row of 8388608. -/
theorem V_classes (c : Dev nD) : (V m c main_v1 : S1x8388608.Idx → BitVec 32)
    = shapeCast S1x8388608 (m (c.tc.loc main_arg1)) shapeCasts_S8388608_S1x8388608 := by
  show StableHlo.after hostOps0 (fun b => m (c, b)) (Proc.devRef .tc main_v1) = _
  after_results
  rfl

/-- The 8 × 3 matrix: the constant table, entry by entry. -/
theorem V_matrix (c : Dev nD) : (V m c main_cst : S8x3.Idx → EReal)
    = fun i => Ideal.ofBits .f32 (lit0 (S8x3.rowMajor i)) := by
  show StableHlo.after hostOps0 (fun b => m (c, b)) (Proc.devRef .tc main_cst) = _
  after_results
  rfl

/-- The offsets: the constant vector of 8, recast as an 8 × 1 column. -/
theorem V_offsets (c : Dev nD) : (V m c main_v2 : S8x1.Idx → EReal)
    = shapeCast S8x1 (fun i : S8.Idx => Ideal.ofBits .f32 (lit1 (S8.rowMajor i))) shapeCasts_S8_S8x1 := by
  show StableHlo.after hostOps0 (fun b => m (c, b)) (Proc.devRef .tc main_v2) = _
  after_results
  rfl

/-! ## The block indices, over the 128 points -/

/-- The feature block of point t is block (0, t). -/
theorem index_features : ∀ t : Fin cfg0.N, win0_0.index t 0 = 0 ∧ win0_0.index t 1 = t.val :=
  (by decide +kernel : ∀ t : Fin grid0.N, win0_0.index t 0 = 0 ∧ win0_0.index t 1 = t.val)

/-- The class block of point t is block (0, t). -/
theorem index_classes : ∀ t : Fin cfg0.N, win0_1.index t 0 = 0 ∧ win0_1.index t 1 = t.val :=
  (by decide +kernel : ∀ t : Fin grid0.N, win0_1.index t 0 = 0 ∧ win0_1.index t 1 = t.val)

/-- The matrix is one block, (0, 0), at every point. -/
theorem index_matrix : ∀ t : Fin cfg0.N, win0_2.index t 0 = 0 ∧ win0_2.index t 1 = 0 :=
  (by decide +kernel : ∀ t : Fin grid0.N, win0_2.index t 0 = 0 ∧ win0_2.index t 1 = 0)

/-- The offsets are one block, (0, 0), at every point. -/
theorem index_offsets : ∀ t : Fin cfg0.N, win0_3.index t 0 = 0 ∧ win0_3.index t 1 = 0 :=
  (by decide +kernel : ∀ t : Fin grid0.N, win0_3.index t 0 = 0 ∧ win0_3.index t 1 = 0)

/-! ## A block entry at any point -/

/-- Lane `lane` of point `t` is row `r = 65536 t + lane`: the feature block's entry (kk, lane) is entry (kk, r) of the
    transposed array, that is, entry (r, kk) of the argument. -/
theorem xblk_at (c : Dev nD) (t : Fin cfg0.N) (kk : Fin 3) (lane : Fin 65536) (r : Fin 8388608)
    (hr : r.val = t.val * 65536 + lane.val) :
    xblk m c t (ix2 kk lane) = m (c.tc.loc main_arg0) (ix2 r kk) := by
  have hi := index_features t
  show V m c main_v0 (((cfg0.win 0).blk t).view.emb (ix2 kk lane)) = _
  rw [V_features]
  have e : ((cfg0.win 0).blk t).view.emb (ix2 kk lane) = (ix2 kk r : S3x8388608.Idx) := by
    funext a
    apply Fin.ext
    match a with
    | ⟨0, _⟩ => show win0_0.index t 0 * 3 + 1 * kk.val = kk.val; rw [hi.1]; omega
    | ⟨1, _⟩ => show win0_0.index t 1 * 65536 + 1 * lane.val = r.val; rw [hi.2]; omega
  rw [e]
  exact transpose_ix2_apply _ _ kk r

/-- The same for the class row: entry (0, lane) of the block is entry (0, r) of the row, which is entry r of the argument
    (the recast keeps row-major positions). -/
theorem tblk_at (c : Dev nD) (t : Fin cfg0.N) (lane : Fin 65536) (r : Fin 8388608)
    (hr : r.val = t.val * 65536 + lane.val) :
    tblk m c t (ix2 0 lane) = m (c.tc.loc main_arg1) (ix1 r) := by
  have hi := index_classes t
  show V m c main_v1 (((cfg0.win 1).blk t).view.emb (ix2 0 lane)) = _
  rw [V_classes]
  have e : ((cfg0.win 1).blk t).view.emb (ix2 0 lane) = (ix2 0 r : S1x8388608.Idx) := by
    funext a
    apply Fin.ext
    match a with
    | ⟨0, _⟩ => show win0_1.index t 0 * 1 + 1 * 0 = 0; rw [hi.1]
    | ⟨1, _⟩ => show win0_1.index t 1 * 65536 + 1 * lane.val = r.val; rw [hi.2]; omega
  rw [e]
  exact shapeCast_a_1a_apply _ _ 0 r

end Blocks

/-! ## The four blocks -/

/-- Feature `kk` of lane `lane` of point (k, i) is feature `kk` of row `rowIx k i lane`. -/
theorem xblk_apply (c : Dev nD) (k : Fin 2) (i : Fin 64) (kk : Fin 3) (lane : Fin 65536) :
    xblk m c (pt k i) (ix2 kk lane) = m (c.tc.loc main_arg0) (ix2 (Cert.Focal.rowIx k i lane) kk) :=
  Blocks.xblk_at m c (pt k i) kk lane _ (by
    show (k.val * 64 + i.val) * 65536 + lane.val = (64 * k.val + i.val) * 65536 + lane.val
    omega)

/-- The class word of lane `lane` of point (k, i) is that of row `rowIx k i lane`. -/
theorem tblk_apply (c : Dev nD) (k : Fin 2) (i : Fin 64) (lane : Fin 65536) :
    tblk m c (pt k i) (ix2 0 lane) = m (c.tc.loc main_arg1) (ix1 (Cert.Focal.rowIx k i lane)) :=
  Blocks.tblk_at m c (pt k i) lane _ (by
    show (k.val * 64 + i.val) * 65536 + lane.val = (64 * k.val + i.val) * 65536 + lane.val
    omega)

/-- The staged matrix is the constant table. -/
theorem mblk_apply (c : Dev nD) (t : Fin cfg0.N) (j : Fin 8) (kk : Fin 3) :
    mblk m c t (ix2 j kk) = Ideal.ofBits .f32 (lit0 (S8x3.rowMajor (ix2 j kk))) := by
  have hi := Blocks.index_matrix t
  show V m c main_cst (((cfg0.win 2).blk t).view.emb (ix2 j kk)) = _
  rw [Blocks.V_matrix]
  have e : ((cfg0.win 2).blk t).view.emb (ix2 j kk) = (ix2 j kk : S8x3.Idx) := by
    funext a
    apply Fin.ext
    match a with
    | ⟨0, _⟩ => show win0_2.index t 0 * 8 + 1 * j.val = j.val; rw [hi.1]; omega
    | ⟨1, _⟩ => show win0_2.index t 1 * 3 + 1 * kk.val = kk.val; rw [hi.2]; omega
  rw [e]

/-- The staged offsets are the constant vector, as a column. -/
theorem bblk_apply (c : Dev nD) (t : Fin cfg0.N) (j : Fin 8) :
    bblk m c t (ix2 j 0) = Ideal.ofBits .f32 (lit1 (S8.rowMajor (ix1 j))) := by
  have hi := Blocks.index_offsets t
  show V m c main_v2 (((cfg0.win 3).blk t).view.emb (ix2 j 0)) = _
  rw [Blocks.V_offsets]
  have e : ((cfg0.win 3).blk t).view.emb (ix2 j 0) = (ix2 j 0 : S8x1.Idx) := by
    funext a
    apply Fin.ext
    match a with
    | ⟨0, _⟩ => show win0_3.index t 0 * 8 + 1 * j.val = j.val; rw [hi.1]; omega
    | ⟨1, _⟩ => show win0_3.index t 1 * 1 + 1 * 0 = 0; rw [hi.2]
  rw [e]
  -- entry (j, 0) of the column and entry j of the vector have the same row-major position, j · 1 + 0 = j
  exact shapeCast_apply _ _ _ (ix1 j) (by
    rw [Shape.rowMajor_val_two, Shape.rowMajor_val_one]
    show j.val = j.val * 1 + 0
    omega)

end Cert.KernelIdeal.KValue

end
-- ==== Proof.KFinal.lean ====
/-
  The result of the whole program.

  The 16 × 128 result array of the region is written back twice, rows 0–7 after run 0 and rows 8–15 after run 1, each time
  with the output block: the run's total at the block's entry (0, 0), zero elsewhere.  The sum of the array's entries is the
  sum of the two totals, that is of all row losses block by block, and the program's result is that sum divided by the row
  count.

  In detail: the array ends with the total of run k at entry (8 k, 0) and zero at every other entry, since the block written
  after run k occupies rows 8 k … 8 k + 7 and the two blocks together fill the sixteen rows.  Summing the array row by row,
  only column 0 of a row can be non-zero and only rows 0 and 8 are, which leaves the two totals.  A run's total is the sum
  over its 64 points of the point's lane sum, and lane n of point i of run k is row (64 k + i) · 65536 + n of the arguments,
  with the matrix and the offsets the constant tables at every point.
-/
import proofs.«413137_j20409684591021_2_alg».proof.Proof.Gen.KernelIdeal.Frame
import proofs.«413137_j20409684591021_2_alg».proof.Proof.KOuts
import proofs.«413137_j20409684591021_2_alg».proof.Proof.KBlocks
import Idealize.ShloMosaic.Lib.Pipeline.Value
import Idealize.ShloMosaic.Lib.StableHlo.Run
import Idealize.ShloMosaic.PureOps.Ideal.Laws

noncomputable section

namespace Cert.KernelIdeal.KValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The rows' features and class words, as the argument arrays hold them. -/
def Xof (c : Dev nD) : Fin 8388608 → Fin 3 → EReal := fun n k => m (c.tc.loc main_arg0) (ix2 n k)
def Tof (c : Dev nD) : Fin 8388608 → BitVec 32 := fun n => m (c.tc.loc main_arg1) (ix1 n)
/-- The matrix and the offsets, as the constant tables spell them. -/
def Mk : Fin 8 → Fin 3 → EReal := fun j k => Ideal.ofBits .f32 (lit0 (S8x3.rowMajor (ix2 j k)))
def bk : Fin 8 → EReal := fun j => Ideal.ofBits .f32 (lit1 (S8.rowMajor (ix1 j)))

/-! ## The class words of the blocks -/

/-- Point t of the grid is point t mod 64 of run t div 64. -/
theorem eq_pt (t : Fin cfg0.N) :
    t = pt ⟨t.val / 64, by have := lt_of_lt_of_eq t.isLt (show cfg0.N = 128 from N_0); omega⟩
      ⟨t.val % 64, Nat.mod_lt _ (by decide)⟩ :=
  Fin.ext (by show t.val = 64 * (t.val / 64) + t.val % 64; omega)

/-- Every class word of every block is a class word of the argument, so it is below 8 when all of those are. -/
theorem tok_of_rows (hT : ∀ c n, (Tof m c n).toNat < 8) (c : Dev nD) : TOk m c := by
  intro t lane
  rw [eq_pt t, tblk_apply]
  exact hT c _

/-! ## The result array of the region -/

/-- What the result array ends holding: the total of run k at entry (8 k, 0), zero at every other entry. -/
def totals (c : Dev nD) : S16x128.Idx → EReal := fun idx =>
  if (idx 0).val % 8 = 0 ∧ (idx 1).val = 0 then
    ∑ i : Fin 64, bsum m c (pt ⟨(idx 0).val / 8, by have h : (idx 0).val < 16 := (idx 0).isLt; omega⟩ i)
  else 0

/-- The output block of point t is block (t div 64, 0) of the result array: its rows are 8 (t div 64) … 8 (t div 64) + 7 and
    its columns all 128 (the index map, decided over the 128 points). -/
theorem out_index : ∀ t : Fin cfg0.N, win0_4.index t (0 : Fin 2) = t.val / 64 ∧ win0_4.index t (1 : Fin 2) = 0 :=
  (by decide +kernel : ∀ t : Fin grid0.N, win0_4.index t (0 : Fin 2) = t.val / 64 ∧ win0_4.index t (1 : Fin 2) = 0)

/-- What a point that writes back writes is its block of `totals`.  Such a point is the last of a run k; entry (r, l) of
    its block is entry (8 k + r, l) of the array, so 8 k + r is a multiple of 8 exactly when r = 0, and then (8 k + r) div 8
    is k: the block's entry (0, 0) is the array's entry (8 k, 0), holding run k's total, and the other entries are zero on
    both sides. -/
theorem flushed_eq (c : Dev nD) (hT : TOk m c) (t : Fin cfg0.N) (hf : (cfg0.win 4).flush t = true) :
    (dats m 0 c).flushed 4 t = ((cfg0.win 4).blk t).view.read (Elt Ideal) (totals m c) := by
  have h63 := (flush0_4 t).mp hf
  have hN : t.val < 128 := lt_of_lt_of_eq t.isLt (show cfg0.N = 128 from N_0)
  obtain ⟨k, rfl⟩ : ∃ k : Fin 2, t = pt k 63 :=
    ⟨⟨t.val / 64, by omega⟩, Fin.ext (by show t.val = 64 * (t.val / 64) + 63; omega)⟩
  show (cfg0.win 4).cut (grid0.coords (pt k 63)) ((dats m 0 c).after 4 (pt k 63)) = _
  rw [after0_4, outs_last m c hT k]
  funext j
  obtain ⟨e0, e1⟩ := out_index (pt k 63)
  have hk : k.val < 2 := k.isLt
  have hp : (pt k 63).val = 64 * k.val + 63 := rfl
  have hj0 : (j 0).val < 8 := (j 0).isLt
  have hj1 : (j 1).val < 128 := (j 1).isLt
  have hrow : ((((cfg0.win 4).blk (pt k 63)).view.emb j) 0).val = 8 * k.val + (j 0).val := by
    show win0_4.index (pt k 63) (0 : Fin 2) * 8 + 1 * (j 0).val = _
    rw [e0, hp]; omega
  have hcol : ((((cfg0.win 4).blk (pt k 63)).view.emb j) 1).val = (j 1).val := by
    show win0_4.index (pt k 63) (1 : Fin 2) * 128 + 1 * (j 1).val = _
    rw [e1]; omega
  show (if (cfg0.win 4).xinj (grid0.coords (pt k 63)) j = ix2 0 0 then ∑ i, bsum m c (pt k i) else 0)
    = totals m c (((cfg0.win 4).blk (pt k 63)).view.emb j)
  unfold totals
  have horigin : (cfg0.win 4).xinj (grid0.coords (pt k 63)) j = ix2 0 0 ↔ (j 0).val = 0 ∧ (j 1).val = 0 := by
    constructor
    · intro h; exact ⟨congrArg (fun f => (f 0).val) h, congrArg (fun f => (f 1).val) h⟩
    · rintro ⟨h0, h1⟩; funext a; apply Fin.ext
      match a with
      | ⟨0, _⟩ => exact h0
      | ⟨1, _⟩ => exact h1
  by_cases h : (j 0).val = 0 ∧ (j 1).val = 0
  · rw [if_pos (horigin.mpr h), if_pos ⟨by rw [hrow]; omega, by rw [hcol]; exact h.2⟩]
    refine Finset.sum_congr rfl fun i _ => ?_
    exact congrArg (fun q : Fin 2 => bsum m c (pt q i)) (Fin.ext (by show k.val = _ / 8; rw [hrow]; omega))
  · rw [if_neg (fun h' => h (horigin.mp h')),
      if_neg (fun h' => h ⟨by have := h'.1; rw [hrow] at this; omega, by have := h'.2; rwa [hcol] at this⟩)]

/-- An entry of the result array is in point t's block iff each coordinate is in the block's range on its axis. -/
theorem mem_blk (t : Fin cfg0.N) (i : S16x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v3).slice (win0_4.rect t)).set ↔ _
  rw [View.set_slice_whole, Rect.mem_set_unit]
  exact Iff.rfl

/-- The result array after the region is `totals`: row r lies in the block written after run r div 8, whose rows are
    8 (r div 8) … 8 (r div 8) + 7, so the two write-backs fill the array. -/
theorem arr_final (c : Dev nD) (hT : TOk m c) : (dats m 0 c).arrAt 4 cfg0.N = totals m c :=
  (dats m 0 c).arrAt_eq_of_cover 4 (totals m c) (flushed_eq m c hT) fun i => by
    have hi0 : (i 0).val < 16 := (i 0).isLt
    have hi1 : (i 1).val < 128 := (i 1).isLt
    let t : Fin cfg0.N := pt ⟨(i 0).val / 8, by omega⟩ 63
    have hp : t.val = 64 * ((i 0).val / 8) + 63 := rfl
    obtain ⟨e0, e1⟩ := out_index t
    refine ⟨t, (flush0_4 t).mpr (by rw [hp]; omega), ?_⟩
    rw [mem_blk]
    intro a
    match a with
    | ⟨0, _⟩ =>
      show win0_4.index t (0 : Fin 2) * 8 ≤ (i 0).val ∧ (i 0).val < win0_4.index t (0 : Fin 2) * 8 + 8
      rw [e0, hp]; omega
    | ⟨1, _⟩ =>
      show win0_4.index t (1 : Fin 2) * 128 ≤ (i 1).val ∧ (i 1).val < win0_4.index t (1 : Fin 2) * 128 + 128
      rw [e1]; omega

/-! ## The sum of the array -/

/-- The entries of `totals` add up to the two runs' totals: in row a only column 0 can be non-zero, so the row's sum is its
    entry (a, 0); that entry is non-zero only for a = 0 and a = 8, where it is the total of run 0 and of run 1. -/
theorem sum_totals (c : Dev nD) :
    ∑ idx : S16x128.Idx, totals m c idx = ∑ k : Fin 2, ∑ i : Fin 64, bsum m c (pt k i) := by
  rw [sum_idx2]
  have hrow : ∀ a : Fin 16, ∑ b : Fin 128, totals m c (ix2 a b)
      = if a.val % 8 = 0 then ∑ i : Fin 64, bsum m c (pt ⟨a.val / 8, by have := a.isLt; omega⟩ i) else 0 := by
    intro a
    rw [Finset.sum_eq_single (0 : Fin 128)]
    · unfold totals
      show (if a.val % 8 = 0 ∧ (0 : Fin 128).val = 0 then _ else 0) = _
      by_cases h : a.val % 8 = 0
      · rw [if_pos ⟨h, rfl⟩, if_pos h]
      · rw [if_neg (fun h' => h h'.1), if_neg h]
    · intro b _ hb
      unfold totals
      exact if_neg (fun h' => hb (Fin.ext h'.2))
    · intro h; exact absurd (Finset.mem_univ _) h
  rw [Finset.sum_congr rfl fun a _ => hrow a, ← Finset.sum_filter,
    show (Finset.univ.filter fun a : Fin 16 => a.val % 8 = 0) = {0, 8} from by decide,
    Finset.sum_pair (by decide), Fin.sum_univ_two]
  rfl

/-- The lane sum of point i of run k over the arguments: its lane n is row (64 k + i) · 65536 + n, its matrix and offsets
    are the constant tables. -/
theorem bsum_rows (c : Dev nD) (k : Fin 2) (i : Fin 64) :
    bsum m c (pt k i) = ∑ lane : Fin 65536,
      Cert.Focal.rowK Mk bk (Xof m c (Cert.Focal.rowIx k i lane)) (Tof m c (Cert.Focal.rowIx k i lane)) := by
  unfold bsum
  refine Finset.sum_congr rfl fun lane _ => ?_
  have hM : (fun j kk => mblk m c (pt k i) (ix2 j kk)) = Mk :=
    funext fun j => funext fun kk => mblk_apply m c _ j kk
  have hb : (fun j => bblk m c (pt k i) (ix2 j 0)) = bk := funext fun j => bblk_apply m c _ j
  have hx : (fun kk => xblk m c (pt k i) (ix2 kk lane)) = Xof m c (Cert.Focal.rowIx k i lane) :=
    funext fun kk => xblk_apply m c k i kk lane
  exact congr (congr (congr (congrArg Cert.Focal.rowK hM) hb) hx) (tblk_apply m c k i lane)

/-! ## The lines after the region -/

/-- The program's result: the lines after the region add the result array's entries to +0.0 and divide by the row count;
    the array is `totals`, its entries add up to the 128 lane sums, and each lane sum is the sum of its rows' losses. -/
theorem result_eq (c : Dev nD) (hT : TOk m c) :
    Pipeline.afterTail₀ cfgs (dats m) 0 (V0 m) [hostOps1] c main_v5
      = fun _ => Cert.Focal.resK Mk bk (Xof m c) (Tof m c) := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v3) = totals m c :=
    (Pipeline.withArrays_arr spec0 launch0.win.arr_inj c _ _ 4).trans (arr_final m c hT)
  rw [e]
  funext z
  show Ideal.div (Ideal.hostReduceAdd reducesTo_S16x128_S_d0_1 (totals m c) (Ideal.ofBits .f32 0x00000000#32) z)
    (Ideal.ofBits .f32 0x4B000000#32) = _
  rw [Ideal.hostReduceAdd_total _ (fun b => b.elim0), sum_totals]
  unfold Cert.Focal.resK
  rw [Finset.sum_congr rfl fun k _ => Finset.sum_congr rfl fun i _ => bsum_rows m c k i]

/-- Every weakly fair execution ends with the result at the block-by-block mean loss of the argument arrays, which are
    unchanged. -/
theorem run (hT : ∀ c n, (Tof m c n).toNat < 8) :
    θ_run defs (onTc (τ := τ) (main (F := Ideal))) ⟨m, fun _ => 0, ρ⟩ (fun r => ∀ c : Dev nD,
      r.2.mem (c.tc.loc main_v5) = (fun _ => Cert.Focal.resK Mk bk (Xof m c) (Tof m c))
      ∧ r.2.mem (c.tc.loc main_arg0) = m (c.tc.loc main_arg0)
      ∧ r.2.mem (c.tc.loc main_arg1) = m (c.tc.loc main_arg1)) :=
  (θ_run defs _ _).mono (fun _ h c =>
    ⟨((h c).2 main_v5 (Pipeline.mem_restRefs_of main_v5 (by decide) (by decide))).trans
        (result_eq m c (tok_of_rows m hT c)),
      ((h c).2 main_arg0 (Pipeline.mem_restRefs_of main_arg0 (by decide) (by decide))).trans
        (W_main_arg0 m (dats m) c),
      ((h c).2 main_arg1 (Pipeline.mem_restRefs_of main_arg1 (by decide) (by decide))).trans
        (W_main_arg1 m (dats m) c)⟩)
    (run_main m ρ)

end Cert.KernelIdeal.KValue

end
-- ==== Proof.RTerm.lean ====
/-
  The reference program as one pure term of its two arguments.

  Rows n < 8388608 carry three features x n · and a class word t n.  The term lists, in the
  order the program prints them, every value it computes: the 3 × 8 weight table and the bias
  row (given by their bit patterns), the logits x · W + b, their row-wise log-softmax
  (row maximum, shifted logits, exponentials, row sum, logarithm, difference), the class word
  wrapped into range (t + 8 when t < 0), the gathered log-probability g of the row's own class
  (kept when 0 ≤ t ≤ 7, a not-a-number filler otherwise), the loss (1 − exp g)^2 · (−g), the
  sum of the losses over the rows and its quotient by 8388608.  Each value is the pure function
  of the operation that produces it applied to the earlier values; nothing is simplified.  The
  term is cut in two at the log-softmax: the first part depends on the features alone, the second
  on the log-softmax and the class words.
-/
import proofs.«413137_j20409684591021_2_alg».proof.Proof.Gen.ReferenceIdeal

noncomputable section

namespace Cert.ReferenceIdeal.RValue

open Idealize.ShloMosaic Idealize.SL.Sem Cert.ReferenceIdeal
open Cert.ReferenceIdeal.Facts₀

/-- The first part: the logits x · W + b and their row-wise log-softmax, one `let` per value in
    the program's order (the called function's values in place at the call). -/
def lsmTerm {F : FTy → Type} [FloatOps F] (x : FVec F S8388608x3 .f32) : FVec F S8388608x8 .f32 :=
  let cst : FVec F S3x8 .f32 := fun i => FloatOps.ofBits .f32 (lit0 (S3x8.rowMajor i))
  let cst_0 : FVec F S8 .f32 := fun i => FloatOps.ofBits .f32 (lit1 (S8.rowMajor i))
  let v0 : FVec F S8388608x8 .f32 :=
    Host.dotGeneral dot_S8388608x3_S3x8_S8388608x8_1_0_0_1_n_n none x cst
  let v1 : FVec F S1x8 .f32 := broadcastInDim S1x8 ![1] bcast_S8_S1x8_1 cst_0
  let v2 : FVec F S8388608x8 .f32 := broadcastInDim S8388608x8 ![0, 1] bcast_S1x8_S8388608x8_0_1 v1
  let v3 : FVec F S8388608x8 .f32 := addf v0 v2
  -- the log-softmax of the logits, row by row
  let call0_cst : FVec F S_ .f32 := constant S_ .f32 0xFF800000#32
  let call0_v0 : FVec F S8388608 .f32 :=
    Host.reduce FloatOps.maximumf v3 call0_cst reducesTo_S8388608x8_S8388608_d1 h_S_
  let call0_cst_0 : FVec F S_ .f32 := constant S_ .f32 0xFF800000#32
  let call0_v1 : FVec F S8388608 .f32 := broadcastInDim S8388608 ![] bcast_S_S8388608 call0_cst_0
  let call0_v2 : FVec F S8388608 .f32 := maximumf call0_v1 call0_v0
  let call0_v3 : FVec F S8388608x1 .f32 :=
    broadcastInDim S8388608x1 ![0] bcast_S8388608_S8388608x1_0 call0_v2
  let call0_v4 : FVec F S8388608x8 .f32 :=
    broadcastInDim S8388608x8 ![0, 1] bcast_S8388608x1_S8388608x8_0_1 call0_v3
  let call0_v5 : FVec F S8388608x8 .f32 := subf v3 call0_v4
  let call0_v6 : FVec F S8388608x8 .f32 := Host.exp call0_v5
  let call0_cst_1 : FVec F S_ .f32 := constant S_ .f32 0x00000000#32
  let call0_v7 : FVec F S8388608 .f32 :=
    Host.reduceAdd call0_v6 call0_cst_1 reducesTo_S8388608x8_S8388608_d1 h_S_
  let call0_v8 : FVec F S8388608x1 .f32 :=
    broadcastInDim S8388608x1 ![0] bcast_S8388608_S8388608x1_0 call0_v7
  let call0_v9 : FVec F S8388608x1 .f32 := Host.log call0_v8
  let call0_v10 : FVec F S8388608x8 .f32 :=
    broadcastInDim S8388608x8 ![0, 1] bcast_S8388608x1_S8388608x8_0_1 call0_v9
  let v4 : FVec F S8388608x8 .f32 := subf call0_v5 call0_v10
  v4

/-- The second part, from the log-softmax v4 and the class words: the row's own log-probability,
    its loss, the sum over the rows and the quotient by the number of rows; one `let` per value in
    the program's order (the called function's values in place at the call). -/
def tailTerm {F : FTy → Type} [FloatOps F] (v4 : FVec F S8388608x8 .f32) (t : IVec S8388608 32) :
    FVec F S_ .f32 :=
  let v5 : IVec S8388608x1 32 := broadcastInDim S8388608x1 ![0] bcast_S8388608_S8388608x1_0 t
  -- the row's own entry of the log-softmax, read at the wrapped class word
  let call1_c : IVec S_ 32 := constantI S_ 32 0#32
  let call1_v0 : IVec S8388608x1 32 := broadcastInDim S8388608x1 ![] bcast_S_S8388608x1 call1_c
  let call1_v1 : IVec S8388608x1 1 := cmpi .slt v5 call1_v0
  let call1_c_0 : IVec S_ 32 := constantI S_ 32 8#32
  let call1_v2 : IVec S8388608x1 32 := broadcastInDim S8388608x1 ![] bcast_S_S8388608x1 call1_c_0
  let call1_v3 : IVec S8388608x1 32 := addi v5 call1_v2
  let call1_v4 : IVec S8388608x1 32 := select call1_v1 call1_v3 v5
  let call1_v5 : IVec S8388608x1x1 32 :=
    shapeCast S8388608x1x1 call1_v4 shapeCasts_S8388608x1_S8388608x1x1
  let call1_c_1 : IVec S1 32 := constantI S1 32 7#32
  let call1_c_2 : IVec S_ 32 := constantI S_ 32 0#32
  let call1_v6 : IVec S8388608x1x1 32 :=
    broadcastInDim S8388608x1x1 ![] bcast_S_S8388608x1x1 call1_c_2
  let call1_v7 : IVec S8388608x1x1 1 := cmpi .sge call1_v5 call1_v6
  let call1_v8 : IVec S1x1x1 32 := broadcastInDim S1x1x1 ![2] bcast_S1_S1x1x1_2 call1_c_1
  let call1_v9 : IVec S8388608x1x1 32 :=
    broadcastInDim S8388608x1x1 ![0, 1, 2] bcast_S1x1x1_S8388608x1x1_0_1_2 call1_v8
  let call1_v10 : IVec S8388608x1x1 1 := cmpi .sle call1_v5 call1_v9
  let call1_v11 : IVec S8388608x1x1 1 := andi call1_v7 call1_v10
  let call1_c_3 : IVec S_ 1 := constantI S_ 1 1#1
  let call1_v12 : IVec S8388608x1 1 :=
    Host.reduce IntOp.andi call1_v11 call1_c_3 reducesTo_S8388608x1x1_S8388608x1_d2 h_S_
  let call1_v13 : FVec F S8388608x1 .f32 :=
    Host.gather gather_S8388608x8_S8388608x1x1_S8388608x1_n_1_0_0_1_2_11 v4 call1_v5
  let call1_cst : FVec F S_ .f32 := constant S_ .f32 0x7FC00000#32
  let call1_v14 : FVec F S8388608x1 .f32 :=
    broadcastInDim S8388608x1 ![] bcast_S_S8388608x1 call1_cst
  let v6 : FVec F S8388608x1 .f32 := select call1_v12 call1_v13 call1_v14
  let v7 : FVec F S8388608 .f32 := shapeCast S8388608 v6 shapeCasts_S8388608x1_S8388608
  let v8 : FVec F S8388608 .f32 := Host.negf v7
  let v9 : FVec F S8388608 .f32 := Host.negf v8
  let v10 : FVec F S8388608 .f32 := Host.exp v9
  let cst_1 : FVec F S_ .f32 := constant S_ .f32 0x3F800000#32
  let v11 : FVec F S8388608 .f32 := broadcastInDim S8388608 ![] bcast_S_S8388608 cst_1
  let v12 : FVec F S8388608 .f32 := subf v11 v10
  let cst_2 : FVec F S_ .f32 := constant S_ .f32 0x40000000#32
  let v13 : FVec F S8388608 .f32 := broadcastInDim S8388608 ![] bcast_S_S8388608 cst_2
  let v14 : FVec F S8388608 .f32 := Host.powf v12 v13
  let v15 : FVec F S8388608 .f32 := mulf v14 v8
  let cst_3 : FVec F S_ .f32 := constant S_ .f32 0x00000000#32
  let v16 : FVec F S_ .f32 := Host.reduceAdd v15 cst_3 reducesTo_S8388608_S_d0 h_S_
  let cst_4 : FVec F S_ .f32 := constant S_ .f32 0x4B000000#32
  let v17 : FVec F S_ .f32 := Host.divf v16 cst_4
  v17

/-- The reference's result as one pure term of its arguments: the second part at the first. -/
def refTerm {F : FTy → Type} [FloatOps F] (x : FVec F S8388608x3 .f32) (t : IVec S8388608 32) :
    FVec F S_ .f32 :=
  tailTerm (lsmTerm x) t

end Cert.ReferenceIdeal.RValue

end
-- ==== Proof.RRun.lean ====
/-
  The reference program's run.

  The reference is a straight line of 59 host operations: 22 of its own and, in place at the two
  calls, the 15 of the log-softmax and the 22 of the gather along the class axis, each writing one
  buffer of its own from buffers written earlier.  Listed in order, the program is the sequence of
  that list; every weakly fair execution from any memory with zero counters terminates, and the
  final memory holds at each buffer the fold of the operations' results over the launch contents.
  Read at the result buffer, that fold is the pure term of RTerm at the two argument buffers'
  launch contents; read at an argument buffer, which no operation writes, it is what was there.
-/
import proofs.«413137_j20409684591021_2_alg».proof.Proof.RTerm
import Idealize.ShloMosaic.Lib.StableHlo.Run

noncomputable section

namespace Cert.ReferenceIdeal.RValue

open Idealize.ShloMosaic Idealize.ShloMosaic.TcCoe Idealize.SL.Sem Idealize.ShloMosaic.StableHlo
open Cert.ReferenceIdeal Cert.ReferenceIdeal.Facts₀

variable {F : FTy → Type} [FloatOps F]

/-- The program's 59 operations, in order: the called functions' operations in place at their
    calls, over the calls' own buffers. -/
abbrev ops : List (HloOp τ sig (Elt F)) :=
  [ nullary main_cst (fun i => FloatOps.ofBits .f32 (lit0 (S3x8.rowMajor i))),
    nullary main_cst_0 (fun i => FloatOps.ofBits .f32 (lit1 (S8.rowMajor i))),
    binary main_arg0 main_cst main_v0 ((fun l r => Host.dotGeneral dot_S8388608x3_S3x8_S8388608x8_1_0_0_1_n_n none l r) : (⟨S8388608x3, .f32⟩ : BufTy).Contents (Elt F) → (⟨S3x8, .f32⟩ : BufTy).Contents (Elt F) → (⟨S8388608x8, .f32⟩ : BufTy).Contents (Elt F)),
    unary main_cst_0 main_v1 (broadcastInDim S1x8 ![1] bcast_S8_S1x8_1 : (⟨S8, .f32⟩ : BufTy).Contents (Elt F) → (⟨S1x8, .f32⟩ : BufTy).Contents (Elt F)),
    unary main_v1 main_v2 (broadcastInDim S8388608x8 ![0, 1] bcast_S1x8_S8388608x8_0_1 : (⟨S1x8, .f32⟩ : BufTy).Contents (Elt F) → (⟨S8388608x8, .f32⟩ : BufTy).Contents (Elt F)),
    binary main_v0 main_v2 main_v3 (addf : (⟨S8388608x8, .f32⟩ : BufTy).Contents (Elt F) → (⟨S8388608x8, .f32⟩ : BufTy).Contents (Elt F) → (⟨S8388608x8, .f32⟩ : BufTy).Contents (Elt F)),
    nullary main_call0_cst (constant S_ .f32 0xFF800000#32 : (⟨S_, .f32⟩ : BufTy).Contents (Elt F)),
    binary main_v3 main_call0_cst main_call0_v0 ((fun x v => Host.reduce FloatOps.maximumf x v reducesTo_S8388608x8_S8388608_d1 h_S_) : (⟨S8388608x8, .f32⟩ : BufTy).Contents (Elt F) → (⟨S_, .f32⟩ : BufTy).Contents (Elt F) → (⟨S8388608, .f32⟩ : BufTy).Contents (Elt F)),
    nullary main_call0_cst_0 (constant S_ .f32 0xFF800000#32 : (⟨S_, .f32⟩ : BufTy).Contents (Elt F)),
    unary main_call0_cst_0 main_call0_v1 (broadcastInDim S8388608 ![] bcast_S_S8388608 : (⟨S_, .f32⟩ : BufTy).Contents (Elt F) → (⟨S8388608, .f32⟩ : BufTy).Contents (Elt F)),
    binary main_call0_v1 main_call0_v0 main_call0_v2 (maximumf : (⟨S8388608, .f32⟩ : BufTy).Contents (Elt F) → (⟨S8388608, .f32⟩ : BufTy).Contents (Elt F) → (⟨S8388608, .f32⟩ : BufTy).Contents (Elt F)),
    unary main_call0_v2 main_call0_v3 (broadcastInDim S8388608x1 ![0] bcast_S8388608_S8388608x1_0 : (⟨S8388608, .f32⟩ : BufTy).Contents (Elt F) → (⟨S8388608x1, .f32⟩ : BufTy).Contents (Elt F)),
    unary main_call0_v3 main_call0_v4 (broadcastInDim S8388608x8 ![0, 1] bcast_S8388608x1_S8388608x8_0_1 : (⟨S8388608x1, .f32⟩ : BufTy).Contents (Elt F) → (⟨S8388608x8, .f32⟩ : BufTy).Contents (Elt F)),
    binary main_v3 main_call0_v4 main_call0_v5 (subf : (⟨S8388608x8, .f32⟩ : BufTy).Contents (Elt F) → (⟨S8388608x8, .f32⟩ : BufTy).Contents (Elt F) → (⟨S8388608x8, .f32⟩ : BufTy).Contents (Elt F)),
    unary main_call0_v5 main_call0_v6 (Host.exp : (⟨S8388608x8, .f32⟩ : BufTy).Contents (Elt F) → (⟨S8388608x8, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S8388608x8_S8388608_d1 h_S_) : (⟨S8388608x8, .f32⟩ : BufTy).Contents (Elt F) → (⟨S_, .f32⟩ : BufTy).Contents (Elt F) → (⟨S8388608, .f32⟩ : BufTy).Contents (Elt F)),
    unary main_call0_v7 main_call0_v8 (broadcastInDim S8388608x1 ![0] bcast_S8388608_S8388608x1_0 : (⟨S8388608, .f32⟩ : BufTy).Contents (Elt F) → (⟨S8388608x1, .f32⟩ : BufTy).Contents (Elt F)),
    unary main_call0_v8 main_call0_v9 (Host.log : (⟨S8388608x1, .f32⟩ : BufTy).Contents (Elt F) → (⟨S8388608x1, .f32⟩ : BufTy).Contents (Elt F)),
    unary main_call0_v9 main_call0_v10 (broadcastInDim S8388608x8 ![0, 1] bcast_S8388608x1_S8388608x8_0_1 : (⟨S8388608x1, .f32⟩ : BufTy).Contents (Elt F) → (⟨S8388608x8, .f32⟩ : BufTy).Contents (Elt F)),
    binary main_call0_v5 main_call0_v10 main_v4 (subf : (⟨S8388608x8, .f32⟩ : BufTy).Contents (Elt F) → (⟨S8388608x8, .f32⟩ : BufTy).Contents (Elt F) → (⟨S8388608x8, .f32⟩ : BufTy).Contents (Elt F)),
    unary main_arg1 main_v5 (broadcastInDim S8388608x1 ![0] bcast_S8388608_S8388608x1_0 : (⟨S8388608, .i32⟩ : BufTy).Contents (Elt F) → (⟨S8388608x1, .i32⟩ : BufTy).Contents (Elt F)),
    nullary main_call1_c (constantI S_ 32 0#32 : (⟨S_, .i32⟩ : BufTy).Contents (Elt F)),
    unary main_call1_c main_call1_v0 (broadcastInDim S8388608x1 ![] bcast_S_S8388608x1 : (⟨S_, .i32⟩ : BufTy).Contents (Elt F) → (⟨S8388608x1, .i32⟩ : BufTy).Contents (Elt F)),
    binary main_v5 main_call1_v0 main_call1_v1 (cmpi .slt : (⟨S8388608x1, .i32⟩ : BufTy).Contents (Elt F) → (⟨S8388608x1, .i32⟩ : BufTy).Contents (Elt F) → (⟨S8388608x1, .i1⟩ : BufTy).Contents (Elt F)),
    nullary main_call1_c_0 (constantI S_ 32 8#32 : (⟨S_, .i32⟩ : BufTy).Contents (Elt F)),
    unary main_call1_c_0 main_call1_v2 (broadcastInDim S8388608x1 ![] bcast_S_S8388608x1 : (⟨S_, .i32⟩ : BufTy).Contents (Elt F) → (⟨S8388608x1, .i32⟩ : BufTy).Contents (Elt F)),
    binary main_v5 main_call1_v2 main_call1_v3 (addi : (⟨S8388608x1, .i32⟩ : BufTy).Contents (Elt F) → (⟨S8388608x1, .i32⟩ : BufTy).Contents (Elt F) → (⟨S8388608x1, .i32⟩ : BufTy).Contents (Elt F)),
    ternary main_call1_v1 main_call1_v3 main_v5 main_call1_v4 (select : (⟨S8388608x1, .i1⟩ : BufTy).Contents (Elt F) → (⟨S8388608x1, .i32⟩ : BufTy).Contents (Elt F) → (⟨S8388608x1, .i32⟩ : BufTy).Contents (Elt F) → (⟨S8388608x1, .i32⟩ : BufTy).Contents (Elt F)),
    reshape main_call1_v4 main_call1_v5 rfl shapeCasts_S8388608x1_S8388608x1x1,
    nullary main_call1_c_1 (constantI S1 32 7#32 : (⟨S1, .i32⟩ : BufTy).Contents (Elt F)),
    nullary main_call1_c_2 (constantI S_ 32 0#32 : (⟨S_, .i32⟩ : BufTy).Contents (Elt F)),
    unary main_call1_c_2 main_call1_v6 (broadcastInDim S8388608x1x1 ![] bcast_S_S8388608x1x1 : (⟨S_, .i32⟩ : BufTy).Contents (Elt F) → (⟨S8388608x1x1, .i32⟩ : BufTy).Contents (Elt F)),
    binary main_call1_v5 main_call1_v6 main_call1_v7 (cmpi .sge : (⟨S8388608x1x1, .i32⟩ : BufTy).Contents (Elt F) → (⟨S8388608x1x1, .i32⟩ : BufTy).Contents (Elt F) → (⟨S8388608x1x1, .i1⟩ : BufTy).Contents (Elt F)),
    unary main_call1_c_1 main_call1_v8 (broadcastInDim S1x1x1 ![2] bcast_S1_S1x1x1_2 : (⟨S1, .i32⟩ : BufTy).Contents (Elt F) → (⟨S1x1x1, .i32⟩ : BufTy).Contents (Elt F)),
    unary main_call1_v8 main_call1_v9 (broadcastInDim S8388608x1x1 ![0, 1, 2] bcast_S1x1x1_S8388608x1x1_0_1_2 : (⟨S1x1x1, .i32⟩ : BufTy).Contents (Elt F) → (⟨S8388608x1x1, .i32⟩ : BufTy).Contents (Elt F)),
    binary main_call1_v5 main_call1_v9 main_call1_v10 (cmpi .sle : (⟨S8388608x1x1, .i32⟩ : BufTy).Contents (Elt F) → (⟨S8388608x1x1, .i32⟩ : BufTy).Contents (Elt F) → (⟨S8388608x1x1, .i1⟩ : BufTy).Contents (Elt F)),
    binary main_call1_v7 main_call1_v10 main_call1_v11 (andi : (⟨S8388608x1x1, .i1⟩ : BufTy).Contents (Elt F) → (⟨S8388608x1x1, .i1⟩ : BufTy).Contents (Elt F) → (⟨S8388608x1x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S8388608x1x1_S8388608x1_d2 h_S_) : (⟨S8388608x1x1, .i1⟩ : BufTy).Contents (Elt F) → (⟨S_, .i1⟩ : BufTy).Contents (Elt F) → (⟨S8388608x1, .i1⟩ : BufTy).Contents (Elt F)),
    binary main_v4 main_call1_v5 main_call1_v13 ((fun x i => Host.gather gather_S8388608x8_S8388608x1x1_S8388608x1_n_1_0_0_1_2_11 x i) : (⟨S8388608x8, .f32⟩ : BufTy).Contents (Elt F) → (⟨S8388608x1x1, .i32⟩ : BufTy).Contents (Elt F) → (⟨S8388608x1, .f32⟩ : BufTy).Contents (Elt F)),
    nullary main_call1_cst (constant S_ .f32 0x7FC00000#32 : (⟨S_, .f32⟩ : BufTy).Contents (Elt F)),
    unary main_call1_cst main_call1_v14 (broadcastInDim S8388608x1 ![] bcast_S_S8388608x1 : (⟨S_, .f32⟩ : BufTy).Contents (Elt F) → (⟨S8388608x1, .f32⟩ : BufTy).Contents (Elt F)),
    ternary main_call1_v12 main_call1_v13 main_call1_v14 main_v6 (select : (⟨S8388608x1, .i1⟩ : BufTy).Contents (Elt F) → (⟨S8388608x1, .f32⟩ : BufTy).Contents (Elt F) → (⟨S8388608x1, .f32⟩ : BufTy).Contents (Elt F) → (⟨S8388608x1, .f32⟩ : BufTy).Contents (Elt F)),
    reshape main_v6 main_v7 rfl shapeCasts_S8388608x1_S8388608,
    unary main_v7 main_v8 (Host.negf : (⟨S8388608, .f32⟩ : BufTy).Contents (Elt F) → (⟨S8388608, .f32⟩ : BufTy).Contents (Elt F)),
    unary main_v8 main_v9 (Host.negf : (⟨S8388608, .f32⟩ : BufTy).Contents (Elt F) → (⟨S8388608, .f32⟩ : BufTy).Contents (Elt F)),
    unary main_v9 main_v10 (Host.exp : (⟨S8388608, .f32⟩ : BufTy).Contents (Elt F) → (⟨S8388608, .f32⟩ : BufTy).Contents (Elt F)),
    nullary main_cst_1 (constant S_ .f32 0x3F800000#32),
    unary main_cst_1 main_v11 (broadcastInDim S8388608 ![] bcast_S_S8388608 : (⟨S_, .f32⟩ : BufTy).Contents (Elt F) → (⟨S8388608, .f32⟩ : BufTy).Contents (Elt F)),
    binary main_v11 main_v10 main_v12 (subf : (⟨S8388608, .f32⟩ : BufTy).Contents (Elt F) → (⟨S8388608, .f32⟩ : BufTy).Contents (Elt F) → (⟨S8388608, .f32⟩ : BufTy).Contents (Elt F)),
    nullary main_cst_2 (constant S_ .f32 0x40000000#32),
    unary main_cst_2 main_v13 (broadcastInDim S8388608 ![] bcast_S_S8388608 : (⟨S_, .f32⟩ : BufTy).Contents (Elt F) → (⟨S8388608, .f32⟩ : BufTy).Contents (Elt F)),
    binary main_v12 main_v13 main_v14 (Host.powf : (⟨S8388608, .f32⟩ : BufTy).Contents (Elt F) → (⟨S8388608, .f32⟩ : BufTy).Contents (Elt F) → (⟨S8388608, .f32⟩ : BufTy).Contents (Elt F)),
    binary main_v14 main_v8 main_v15 (mulf : (⟨S8388608, .f32⟩ : BufTy).Contents (Elt F) → (⟨S8388608, .f32⟩ : BufTy).Contents (Elt F) → (⟨S8388608, .f32⟩ : BufTy).Contents (Elt F)),
    nullary main_cst_3 (constant S_ .f32 0x00000000#32),
    binary main_v15 main_cst_3 main_v16 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_4 (constant S_ .f32 0x4B000000#32),
    binary main_v16 main_cst_4 main_v17 (Host.divf : (⟨S_, .f32⟩ : BufTy).Contents (Elt F) → (⟨S_, .f32⟩ : BufTy).Contents (Elt F) → (⟨S_, .f32⟩ : BufTy).Contents (Elt F)) ]

/-- The same operations as the program spells them: a called function's operations are built over
    typed references to the call's buffers, which transport contents along an equation of buffer
    types that is the identity at these literal buffers. -/
abbrev opsT : List (HloOp τ sig (Elt F)) :=
  [ nullary main_cst (fun i => FloatOps.ofBits .f32 (lit0 (S3x8.rowMajor i))),
    nullary main_cst_0 (fun i => FloatOps.ofBits .f32 (lit1 (S8.rowMajor i))),
    binary main_arg0 main_cst main_v0 ((fun l r => Host.dotGeneral dot_S8388608x3_S3x8_S8388608x8_1_0_0_1_n_n none l r) : (⟨S8388608x3, .f32⟩ : BufTy).Contents (Elt F) → (⟨S3x8, .f32⟩ : BufTy).Contents (Elt F) → (⟨S8388608x8, .f32⟩ : BufTy).Contents (Elt F)),
    unary main_cst_0 main_v1 (broadcastInDim S1x8 ![1] bcast_S8_S1x8_1 : (⟨S8, .f32⟩ : BufTy).Contents (Elt F) → (⟨S1x8, .f32⟩ : BufTy).Contents (Elt F)),
    unary main_v1 main_v2 (broadcastInDim S8388608x8 ![0, 1] bcast_S1x8_S8388608x8_0_1 : (⟨S1x8, .f32⟩ : BufTy).Contents (Elt F) → (⟨S8388608x8, .f32⟩ : BufTy).Contents (Elt F)),
    binary main_v0 main_v2 main_v3 (addf : (⟨S8388608x8, .f32⟩ : BufTy).Contents (Elt F) → (⟨S8388608x8, .f32⟩ : BufTy).Contents (Elt F) → (⟨S8388608x8, .f32⟩ : BufTy).Contents (Elt F)),
    TRef.nullary main_call0.cst (constant S_ .f32 0xFF800000#32),
    TRef.binary (.of main_v3 : TRef sig ⟨S8388608x8, .f32⟩) main_call0.cst main_call0.v0 (fun x v => Host.reduce FloatOps.maximumf x v reducesTo_S8388608x8_S8388608_d1 h_S_),
    TRef.nullary main_call0.cst_0 (constant S_ .f32 0xFF800000#32),
    TRef.unary main_call0.cst_0 main_call0.v1 (broadcastInDim S8388608 ![] bcast_S_S8388608),
    TRef.binary main_call0.v1 main_call0.v0 main_call0.v2 maximumf,
    TRef.unary main_call0.v2 main_call0.v3 (broadcastInDim S8388608x1 ![0] bcast_S8388608_S8388608x1_0),
    TRef.unary main_call0.v3 main_call0.v4 (broadcastInDim S8388608x8 ![0, 1] bcast_S8388608x1_S8388608x8_0_1),
    TRef.binary (.of main_v3 : TRef sig ⟨S8388608x8, .f32⟩) main_call0.v4 main_call0.v5 subf,
    TRef.unary main_call0.v5 main_call0.v6 Host.exp,
    TRef.nullary main_call0.cst_1 (constant S_ .f32 0x00000000#32),
    TRef.binary main_call0.v6 main_call0.cst_1 main_call0.v7 (fun x v => Host.reduceAdd x v reducesTo_S8388608x8_S8388608_d1 h_S_),
    TRef.unary main_call0.v7 main_call0.v8 (broadcastInDim S8388608x1 ![0] bcast_S8388608_S8388608x1_0),
    TRef.unary main_call0.v8 main_call0.v9 Host.log,
    TRef.unary main_call0.v9 main_call0.v10 (broadcastInDim S8388608x8 ![0, 1] bcast_S8388608x1_S8388608x8_0_1),
    TRef.binary main_call0.v5 main_call0.v10 main_call0.v11 subf,
    unary main_arg1 main_v5 (broadcastInDim S8388608x1 ![0] bcast_S8388608_S8388608x1_0 : (⟨S8388608, .i32⟩ : BufTy).Contents (Elt F) → (⟨S8388608x1, .i32⟩ : BufTy).Contents (Elt F)),
    TRef.nullary main_call1.c (constantI S_ 32 0#32),
    TRef.unary main_call1.c main_call1.v0 (broadcastInDim S8388608x1 ![] bcast_S_S8388608x1),
    TRef.binary (.of main_v5 : TRef sig ⟨S8388608x1, .i32⟩) main_call1.v0 main_call1.v1 (cmpi .slt),
    TRef.nullary main_call1.c_0 (constantI S_ 32 8#32),
    TRef.unary main_call1.c_0 main_call1.v2 (broadcastInDim S8388608x1 ![] bcast_S_S8388608x1),
    TRef.binary (.of main_v5 : TRef sig ⟨S8388608x1, .i32⟩) main_call1.v2 main_call1.v3 addi,
    TRef.ternary main_call1.v1 main_call1.v3 (.of main_v5 : TRef sig ⟨S8388608x1, .i32⟩) main_call1.v4 select,
    TRef.reshape main_call1.v4 main_call1.v5 rfl shapeCasts_S8388608x1_S8388608x1x1,
    TRef.nullary main_call1.c_1 (constantI S1 32 7#32),
    TRef.nullary main_call1.c_2 (constantI S_ 32 0#32),
    TRef.unary main_call1.c_2 main_call1.v6 (broadcastInDim S8388608x1x1 ![] bcast_S_S8388608x1x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S8388608x1x1 ![0, 1, 2] bcast_S1x1x1_S8388608x1x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8388608x1x1_S8388608x1_d2 h_S_),
    TRef.binary (.of main_v4 : TRef sig ⟨S8388608x8, .f32⟩) main_call1.v5 main_call1.v13 (fun x i => Host.gather gather_S8388608x8_S8388608x1x1_S8388608x1_n_1_0_0_1_2_11 x i),
    TRef.nullary main_call1.cst (constant S_ .f32 0x7FC00000#32),
    TRef.unary main_call1.cst main_call1.v14 (broadcastInDim S8388608x1 ![] bcast_S_S8388608x1),
    TRef.ternary main_call1.v12 main_call1.v13 main_call1.v14 main_call1.v15 select,
    reshape main_v6 main_v7 rfl shapeCasts_S8388608x1_S8388608,
    unary main_v7 main_v8 (Host.negf : (⟨S8388608, .f32⟩ : BufTy).Contents (Elt F) → (⟨S8388608, .f32⟩ : BufTy).Contents (Elt F)),
    unary main_v8 main_v9 (Host.negf : (⟨S8388608, .f32⟩ : BufTy).Contents (Elt F) → (⟨S8388608, .f32⟩ : BufTy).Contents (Elt F)),
    unary main_v9 main_v10 (Host.exp : (⟨S8388608, .f32⟩ : BufTy).Contents (Elt F) → (⟨S8388608, .f32⟩ : BufTy).Contents (Elt F)),
    nullary main_cst_1 (constant S_ .f32 0x3F800000#32),
    unary main_cst_1 main_v11 (broadcastInDim S8388608 ![] bcast_S_S8388608 : (⟨S_, .f32⟩ : BufTy).Contents (Elt F) → (⟨S8388608, .f32⟩ : BufTy).Contents (Elt F)),
    binary main_v11 main_v10 main_v12 (subf : (⟨S8388608, .f32⟩ : BufTy).Contents (Elt F) → (⟨S8388608, .f32⟩ : BufTy).Contents (Elt F) → (⟨S8388608, .f32⟩ : BufTy).Contents (Elt F)),
    nullary main_cst_2 (constant S_ .f32 0x40000000#32),
    unary main_cst_2 main_v13 (broadcastInDim S8388608 ![] bcast_S_S8388608 : (⟨S_, .f32⟩ : BufTy).Contents (Elt F) → (⟨S8388608, .f32⟩ : BufTy).Contents (Elt F)),
    binary main_v12 main_v13 main_v14 (Host.powf : (⟨S8388608, .f32⟩ : BufTy).Contents (Elt F) → (⟨S8388608, .f32⟩ : BufTy).Contents (Elt F) → (⟨S8388608, .f32⟩ : BufTy).Contents (Elt F)),
    binary main_v14 main_v8 main_v15 (mulf : (⟨S8388608, .f32⟩ : BufTy).Contents (Elt F) → (⟨S8388608, .f32⟩ : BufTy).Contents (Elt F) → (⟨S8388608, .f32⟩ : BufTy).Contents (Elt F)),
    nullary main_cst_3 (constant S_ .f32 0x00000000#32),
    binary main_v15 main_cst_3 main_v16 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_4 (constant S_ .f32 0x4B000000#32),
    binary main_v16 main_cst_4 main_v17 (Host.divf : (⟨S_, .f32⟩ : BufTy).Contents (Elt F) → (⟨S_, .f32⟩ : BufTy).Contents (Elt F) → (⟨S_, .f32⟩ : BufTy).Contents (Elt F)) ]

/-- A typed reference built from a buffer at that buffer's own type transports contents by the
    identity, so the typed binary builder over three such references is the plain one, whatever
    the function. -/
theorem tbinary_of (a b y : Ref sig .tc) (ha : a.space ≠ .host) (ha' : a.isScoped = false)
    (hb : b.space ≠ .host) (hb' : b.isScoped = false) (hy : y.space ≠ .host) (hy' : y.isScoped = false)
    (f : a.ty.Contents (Elt F) → b.ty.Contents (Elt F) → y.ty.Contents (Elt F)) :
    (TRef.binary (TRef.of a rfl ha ha') (TRef.of b rfl hb hb') (TRef.of y rfl hy hy') f : HloOp τ sig (Elt F))
      = binary a b y f ⟨ha, ha'⟩ ⟨hb, hb'⟩ ⟨hy, hy'⟩ := rfl

theorem op7_eq : (TRef.binary (.of main_v3 : TRef sig ⟨S8388608x8, .f32⟩) main_call0.cst main_call0.v0 (fun x v => Host.reduce FloatOps.maximumf x v reducesTo_S8388608x8_S8388608_d1 h_S_) : HloOp τ sig (Elt F)) = binary main_v3 main_call0_cst main_call0_v0 ((fun x v => Host.reduce FloatOps.maximumf x v reducesTo_S8388608x8_S8388608_d1 h_S_) : (⟨S8388608x8, .f32⟩ : BufTy).Contents (Elt F) → (⟨S_, .f32⟩ : BufTy).Contents (Elt F) → (⟨S8388608, .f32⟩ : BufTy).Contents (Elt F)) :=
  tbinary_of main_v3 main_call0_cst main_call0_v0 (by decide) rfl (by decide) rfl (by decide) rfl _

theorem op39_eq : (TRef.binary main_call1.v11 main_call1.c_3 main_call1.v12 (fun x v => Host.reduce IntOp.andi x v reducesTo_S8388608x1x1_S8388608x1_d2 h_S_) : HloOp τ sig (Elt F)) = binary main_call1_v11 main_call1_c_3 main_call1_v12 ((fun x v => Host.reduce IntOp.andi x v reducesTo_S8388608x1x1_S8388608x1_d2 h_S_) : (⟨S8388608x1x1, .i1⟩ : BufTy).Contents (Elt F) → (⟨S_, .i1⟩ : BufTy).Contents (Elt F) → (⟨S8388608x1, .i1⟩ : BufTy).Contents (Elt F)) :=
  tbinary_of main_call1_v11 main_call1_c_3 main_call1_v12 (by decide) rfl (by decide) rfl (by decide) rfl _

set_option maxRecDepth 16384 in
/-- At these buffers the typed builders are the plain ones, operation by operation: the transports
    are identities (for the two reductions by the general statement above). -/
theorem opsT_eq : (opsT : List (HloOp τ sig (Elt F))) = ops := by
  unfold opsT ops
  rw [op7_eq, op39_eq]
  rfl

set_option maxRecDepth 2048 in
/-- The program is that straight line: the two functions unfolded at their calls, both sides are
    one chain of steps once sequencing is re-associated. -/
theorem main_eqT (c : Dev nD) : main (F := F) c = seq opsT := by
  simp only [main, fn_log_softmax.body, fn_take_along_axis.body, seq, bind_assoc, pure_bind]

theorem main_eq (c : Dev nD) : main (F := F) c = seq ops :=
  (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., nullary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub ..,
    unary_bufs_sub .., ternary_bufs_sub .., reshape_bufs_sub .., unary_bufs_sub .., unary_bufs_sub .., unary_bufs_sub ..,
    nullary_bufs_sub .., unary_bufs_sub .., binary_bufs_sub .., nullary_bufs_sub .., unary_bufs_sub .., binary_bufs_sub ..,
    binary_bufs_sub .., nullary_bufs_sub .., binary_bufs_sub .., nullary_bufs_sub .., binary_bufs_sub ..⟩

/-- From any memory with zero counters: every weakly fair execution terminates with each buffer at
    the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.gather in
set_option maxRecDepth 8192 in
/-- The fold read at the result buffer is the pure term at the argument buffers' contents: each
    operation's result at its own buffer is its function's value, at any other buffer what was
    there; the composed functions are then the term's, value by value (a reduction or a gather is
    compared as a whole, through its operands). -/
theorem out_eq (V : Valuation τ sig (Elt F)) :
    after ops V (main_v17 : DevRef τ sig)
      = refTerm (V (main_arg0 : DevRef τ sig)) (V (main_arg1 : DevRef τ sig)) := by
  after_results_simp
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- From any memory with zero counters, every weakly fair execution of the reference terminates
    with its result buffer at the pure term of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem (c.tc.loc main_v17) = refTerm (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun _ h c => ⟨(h c main_v17).trans (out_eq _), (h c main_arg0).trans (arg0_eq _),
      (h c main_arg1).trans (arg1_eq _)⟩) (run_main m ρ)

end Cert.ReferenceIdeal.RValue

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.RLsm.lean ====
/-
  The first part of the reference, read at a row and a class.

  Entry (n, j) of the log-softmax is computed from row n alone: the logits are the contraction of the row's three features with
  column j of the 3 × 8 table plus offset j; the row maximum is the fold of max from -inf over the eight logits, compared once
  more with -inf; the shifted logits are exponentiated and summed from zero over the eight classes, and the logarithm of that
  sum is subtracted from the shifted logit.

  The steps below read each value at an index: a reduction over the class axis at row n runs over the eight entries (n, k); a
  value spread along an axis reads, at (n, j), the operand's entry on the axes it has; an entrywise operation reads its
  operands' entries.  The log-softmax is first read for arbitrary logits v, then v is specialised to the contraction.
-/
import proofs.«413137_j20409684591021_2_alg».proof.Proof.RTerm
import proofs.«413137_j20409684591021_2_alg».proof.Proof.Spec
import proofs.«413137_j20409684591021_2_alg».proof.Proof.LibDotSum
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ReferenceIdeal.RValue

open Idealize.ShloMosaic Idealize.ShloMosaic.ValueIdx Cert.ReferenceIdeal

/-- The table and the offsets, as the constants spell them. -/
def Mr : Fin 3 → Fin 8 → EReal := fun k j => Ideal.ofBits .f32 (lit0 (S3x8.rowMajor (ix2 k j)))
def br : Fin 8 → EReal := fun j => Ideal.ofBits .f32 (lit1 (S8.rowMajor (ix1 j)))

/-! ## Reductions over the class axis, read at a row -/

/-- Row n with class k put back on the reduced axis is the index (n, k). -/
theorem lift_row (h : S8388608x8.Reduces [1] S8388608) (n : Fin 8388608) (k : Fin (S8388608x8.size 1)) :
    h.lift (ix1 n) k = ix2 n (⟨k.val, k.isLt⟩ : Fin 8) := by
  funext c; apply Fin.ext
  match c with
  | ⟨0, _⟩ => rfl
  | ⟨1, _⟩ => rfl

/-- The maximum over the class axis from -inf, at row n: the fold of max from -inf over the row's eight entries. -/
theorem rowMax_apply (v : FVec Ideal S8388608x8 .f32) (h' : S8388608x8.ReducesTo [1] S8388608)
    (hu : 0 < S_.numel) (n : Fin 8388608) :
    Host.reduce FloatOps.maximumf v (constant S_ .f32 0xFF800000#32) h' hu (ix1 n)
      = (Finset.univ : Finset (Fin 8)).fold max Cert.Focal.wBot (fun k => v (ix2 n k)) := by
  have h : S8388608x8.Reduces [1] S8388608 := by decide
  rw [Host.reduce_eq_fold_single FloatOps.maximumf v _ h' h hu]
  have hf : (v ∘ h.lift (ix1 n)) = fun k : Fin 8 => v (ix2 n k) := funext fun k => congrArg v (lift_row h n k)
  rw [hf]
  rfl

/-- The sum over the class axis from zero, at row n: zero plus the sum of the row's eight entries. -/
theorem rowSum_apply (v : FVec Ideal S8388608x8 .f32) (h' : S8388608x8.ReducesTo [1] S8388608)
    (hu : 0 < S_.numel) (n : Fin 8388608) :
    Host.reduceAdd v (constant S_ .f32 0x00000000#32) h' hu (ix1 n)
      = Cert.Focal.w0 + ∑ k : Fin 8, v (ix2 n k) := by
  have h : S8388608x8.Reduces [1] S8388608 := by decide
  unfold Host.reduceAdd
  rw [Ideal.hostReduceAdd_def, Ideal.hostReduceAdd_single h' h]
  show Cert.Focal.w0 + ∑ k : Fin 8, v (h.lift (ix1 n) k) = _
  exact congrArg (fun z => Cert.Focal.w0 + z) (Finset.sum_congr rfl fun k _ => congrArg v (lift_row h n k))

/-! ## Values spread along an axis, read at an index -/

section Spread

variable {α : Type}

/-- A per-row value spread over the eight classes reads, at (n, j), the value of row n. -/
theorem bcast_row_apply (h1 : S8388608.BroadcastsInDim S8388608x1 (![0] : Fin 1 → Fin S8388608x1.rank))
    (h2 : S8388608x1.BroadcastsInDim S8388608x8 (![0, 1] : Fin 2 → Fin S8388608x8.rank))
    (y : S8388608.Idx → α) (n : Fin 8388608) (j : Fin 8) :
    broadcastInDim S8388608x8 ![0, 1] h2 (broadcastInDim S8388608x1 ![0] h1 y) (ix2 n j) = y (ix1 n) := by
  refine (broadcastInDim_apply _ h2 _ (ix2 n j) (ix2 n (0 : Fin 1)) (fun a => ?_)).trans
    (broadcastInDim_apply _ h1 y (ix2 n (0 : Fin 1)) (ix1 n) (fun a => ?_))
  · match a with
    | ⟨0, _⟩ => exact (if_neg (show ¬((8388608 : Nat) = 1) by decide)).symm
    | ⟨1, _⟩ => exact (if_pos rfl).symm
  · match a with
    | ⟨0, _⟩ => exact (if_neg (show ¬((8388608 : Nat) = 1) by decide)).symm

/-- A per-row value lifted to a column reads, at (n, 0), the value of row n. -/
theorem bcast_col_apply (h1 : S8388608.BroadcastsInDim S8388608x1 (![0] : Fin 1 → Fin S8388608x1.rank))
    (y : S8388608.Idx → α) (n : Fin 8388608) :
    broadcastInDim S8388608x1 ![0] h1 y (ix2 n (0 : Fin 1)) = y (ix1 n) := by
  refine broadcastInDim_apply _ h1 y (ix2 n (0 : Fin 1)) (ix1 n) (fun a => ?_)
  match a with
  | ⟨0, _⟩ => exact (if_neg (show ¬((8388608 : Nat) = 1) by decide)).symm

/-- A column spread over the eight classes reads, at (n, j), the column's entry n. -/
theorem bcast_colrow_apply (h2 : S8388608x1.BroadcastsInDim S8388608x8 (![0, 1] : Fin 2 → Fin S8388608x8.rank))
    (y : S8388608x1.Idx → α) (n : Fin 8388608) (j : Fin 8) :
    broadcastInDim S8388608x8 ![0, 1] h2 y (ix2 n j) = y (ix2 n (0 : Fin 1)) := by
  refine broadcastInDim_apply _ h2 _ (ix2 n j) (ix2 n (0 : Fin 1)) (fun a => ?_)
  match a with
  | ⟨0, _⟩ => exact (if_neg (show ¬((8388608 : Nat) = 1) by decide)).symm
  | ⟨1, _⟩ => exact (if_pos rfl).symm

/-- The eight offsets spread over the rows read, at (n, j), offset j. -/
theorem bcast_bias_apply (h1 : S8.BroadcastsInDim S1x8 (![1] : Fin 1 → Fin S1x8.rank))
    (h2 : S1x8.BroadcastsInDim S8388608x8 (![0, 1] : Fin 2 → Fin S8388608x8.rank))
    (c : S8.Idx → α) (n : Fin 8388608) (j : Fin 8) :
    broadcastInDim S8388608x8 ![0, 1] h2 (broadcastInDim S1x8 ![1] h1 c) (ix2 n j) = c (ix1 j) := by
  refine (broadcastInDim_apply _ h2 _ (ix2 n j) (ix2 (0 : Fin 1) j) (fun a => ?_)).trans
    (broadcastInDim_apply _ h1 c (ix2 (0 : Fin 1) j) (ix1 j) (fun a => ?_))
  · match a with
    | ⟨0, _⟩ => exact (if_pos rfl).symm
    | ⟨1, _⟩ => exact (if_neg (show ¬((8 : Nat) = 1) by decide)).symm
  · match a with
    | ⟨0, _⟩ => exact (if_neg (show ¬((8 : Nat) = 1) by decide)).symm

/-- A scalar spread over the rows reads the scalar. -/
theorem bcast_scalar_apply (h : S_.BroadcastsInDim S8388608 (![] : Fin 0 → Fin S8388608.rank))
    (y : S_.Idx → α) (n : Fin 8388608) :
    broadcastInDim S8388608 ![] h y (ix1 n) = y ix0 := by
  unfold broadcastInDim
  exact congrArg y (funext fun a => a.elim0)

end Spread

/-! ## The logarithm and the exponential, entry by entry -/

/-- The logarithm of an array reads, at an index, the logarithm of the entry. -/
theorem hostLog_apply {s : Shape} (y : FVec Ideal s .f32) (i : s.Idx) : Host.log y i = Ideal.log (y i) := rfl

/-- The exponential of an array reads, at an index, the exponential of the entry. -/
theorem hostExp_apply {s : Shape} (y : FVec Ideal s .f32) (i : s.Idx) : Host.exp y i = Ideal.exp (y i) := rfl

/-! ## The logits -/

/-- The logits at (n, j): the contraction of row n's features with column j of the table, plus offset j. -/
theorem logit_apply (h1 : S8.BroadcastsInDim S1x8 (![1] : Fin 1 → Fin S1x8.rank))
    (h2 : S1x8.BroadcastsInDim S8388608x8 (![0, 1] : Fin 2 → Fin S8388608x8.rank))
    (x : FVec Ideal S8388608x3 .f32) (n : Fin 8388608) (j : Fin 8) :
    addf (Host.dotGeneral dot_S8388608x3_S3x8_S8388608x8_1_0_0_1_n_n none x
          (fun i => FloatOps.ofBits .f32 (lit0 (S3x8.rowMajor i)) : FVec Ideal S3x8 .f32))
        (broadcastInDim S8388608x8 ![0, 1] h2 (broadcastInDim S1x8 ![1] h1
          (fun i => FloatOps.ofBits .f32 (lit1 (S8.rowMajor i)) : FVec Ideal S8 .f32))) (ix2 n j)
      = Cert.Focal.logitR Mr br (fun k => x (ix2 n k)) j := by
  rw [addf_apply, bcast_bias_apply]
  rw [Cert.Lib.dotGeneral_rc_apply dot_S8388608x3_S3x8_S8388608x8_1_0_0_1_n_n rfl rfl rfl rfl rfl rfl]
  simp only [Cert.Focal.logitR, Mr, br, Ideal.ofBits_def]

/-! ## The log-softmax of arbitrary logits -/

/-- The shifted logits at (n, j): the entry less the row's maximum, the maximum being the fold from -inf compared once more
    with -inf. -/
theorem shift_apply (v : FVec Ideal S8388608x8 .f32) (h' : S8388608x8.ReducesTo [1] S8388608) (hu : 0 < S_.numel)
    (hb0 : S_.BroadcastsInDim S8388608 (![] : Fin 0 → Fin S8388608.rank))
    (hb1 : S8388608.BroadcastsInDim S8388608x1 (![0] : Fin 1 → Fin S8388608x1.rank))
    (hb2 : S8388608x1.BroadcastsInDim S8388608x8 (![0, 1] : Fin 2 → Fin S8388608x8.rank))
    (n : Fin 8388608) (j : Fin 8) :
    subf v (broadcastInDim S8388608x8 ![0, 1] hb2 (broadcastInDim S8388608x1 ![0] hb1
        (maximumf (broadcastInDim S8388608 ![] hb0 (constant S_ .f32 0xFF800000#32))
          (Host.reduce FloatOps.maximumf v (constant S_ .f32 0xFF800000#32) h' hu)))) (ix2 n j)
      = v (ix2 n j) - Cert.Focal.mxR (fun k => v (ix2 n k)) := by
  rw [subf_apply, bcast_row_apply, maximumf_apply, bcast_scalar_apply]
  exact congrArg (fun z => v (ix2 n j) - max Cert.Focal.wBot z) (rowMax_apply v h' hu n)

/-- From shifted logits s, the log-softmax at (n, j): s less the logarithm of the row's sum, from zero, of the eight
    exponentials. -/
theorem logsum_apply (s : FVec Ideal S8388608x8 .f32) (h' : S8388608x8.ReducesTo [1] S8388608) (hu : 0 < S_.numel)
    (hb1 : S8388608.BroadcastsInDim S8388608x1 (![0] : Fin 1 → Fin S8388608x1.rank))
    (hb2 : S8388608x1.BroadcastsInDim S8388608x8 (![0, 1] : Fin 2 → Fin S8388608x8.rank))
    (n : Fin 8388608) (j : Fin 8) :
    subf s (broadcastInDim S8388608x8 ![0, 1] hb2 (Host.log (broadcastInDim S8388608x1 ![0] hb1
        (Host.reduceAdd (Host.exp s) (constant S_ .f32 0x00000000#32) h' hu)))) (ix2 n j)
      = s (ix2 n j) - Ideal.log (Cert.Focal.w0 + ∑ k : Fin 8, Ideal.exp (s (ix2 n k))) := by
  rw [subf_apply, bcast_colrow_apply, hostLog_apply, bcast_col_apply, rowSum_apply]
  simp only [hostExp_apply]

/-- From logits v, with m their row maxima spread back over the classes: the log-softmax at (n, j) is the second
    arrangement's log-probability of row n's eight logits. -/
theorem lsm_apply (v m : FVec Ideal S8388608x8 .f32) (h' : S8388608x8.ReducesTo [1] S8388608) (hu : 0 < S_.numel)
    (hb0 : S_.BroadcastsInDim S8388608 (![] : Fin 0 → Fin S8388608.rank))
    (hb1 : S8388608.BroadcastsInDim S8388608x1 (![0] : Fin 1 → Fin S8388608x1.rank))
    (hb2 : S8388608x1.BroadcastsInDim S8388608x8 (![0, 1] : Fin 2 → Fin S8388608x8.rank))
    (hm : m = broadcastInDim S8388608x8 ![0, 1] hb2 (broadcastInDim S8388608x1 ![0] hb1
        (maximumf (broadcastInDim S8388608 ![] hb0 (constant S_ .f32 0xFF800000#32))
          (Host.reduce FloatOps.maximumf v (constant S_ .f32 0xFF800000#32) h' hu))))
    (n : Fin 8388608) (j : Fin 8) :
    subf (subf v m) (broadcastInDim S8388608x8 ![0, 1] hb2 (Host.log (broadcastInDim S8388608x1 ![0] hb1
        (Host.reduceAdd (Host.exp (subf v m)) (constant S_ .f32 0x00000000#32) h' hu)))) (ix2 n j)
      = Cert.Focal.lsmR (fun k => v (ix2 n k)) j := by
  -- every shifted logit of the row is the logit less the row's maximum
  have hs : ∀ k : Fin 8, subf v m (ix2 n k) = v (ix2 n k) - Cert.Focal.mxR (fun k => v (ix2 n k)) := by
    intro k; rw [hm]; exact shift_apply v h' hu hb0 hb1 hb2 n k
  rw [logsum_apply]
  simp only [hs]
  rfl

/-! ## The reference's log-softmax -/

/-- The log-softmax at row n, class j, is the second arrangement's log-probability of the row's logits. -/
theorem lsmTerm_apply (x : FVec Ideal S8388608x3 .f32) (n : Fin 8388608) (j : Fin 8) :
    lsmTerm (F := Ideal) x (ix2 n j) = Cert.Focal.lsmR (Cert.Focal.logitR Mr br (fun k => x (ix2 n k))) j := by
  -- the term is the log-softmax of the logits; the logits of row n are the contraction plus the offsets
  delta lsmTerm
  show subf _ _ (ix2 n j) = _
  refine (lsm_apply _ _ _ _ _ _ _ rfl n j).trans ?_
  exact congrArg (fun l => Cert.Focal.lsmR l j) (funext fun k => logit_apply _ _ x n k)

end Cert.ReferenceIdeal.RValue

end
-- ==== Proof.RTail.lean ====
/-
  The second part of the reference: from the log-softmax and the class words to the mean loss.

  A class word t with 0 ≤ t < 8 is not negative, so it is not wrapped, and it passes the range test, so the gathered entry is
  kept: the row's value g is the log-softmax at (n, t).  The loss is (1 − exp (−(−g)))² · (−g), the losses are summed from
  zero over the rows, and the sum is divided by the row count.
-/
import proofs.«413137_j20409684591021_2_alg».proof.Proof.RTerm
import proofs.«413137_j20409684591021_2_alg».proof.Proof.Spec
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RValue

open Idealize.ShloMosaic Idealize.ShloMosaic.ValueIdx Cert.ReferenceIdeal

/-! ## Class words below 8 -/

section Words
variable {w : BitVec 32}

/-- Such a word is not negative as a signed number … -/
private theorem slt_zero_of_lt (hw : w.toNat < 8) : IntOp.cmpi .slt w 0#32 = 0#1 := by
  refine eq_zero_of_ne_one fun h => ?_
  have h' := (StableHlo.Predicate.slt_iff_toNat (a := w) (b := 0#32) (by omega) (by decide)).mp h
  have h0 : (0#32 : BitVec 32).toNat = 0 := rfl
  omega
/-- … it is at least 0 … -/
private theorem sge_zero_of_lt (hw : w.toNat < 8) : IntOp.cmpi .sge w 0#32 = 1#1 :=
  (StableHlo.Predicate.sge_iff_toNat (a := w) (b := 0#32) (by omega) (by decide)).mpr (by
    have h0 : (0#32 : BitVec 32).toNat = 0 := rfl
    omega)
/-- … and at most 7 … -/
private theorem sle_seven_of_lt (hw : w.toNat < 8) : IntOp.cmpi .sle w 7#32 = 1#1 :=
  (StableHlo.Predicate.sle_iff_toNat (a := w) (b := 7#32) (by omega) (by decide)).mpr (by
    have h7 : (7#32 : BitVec 32).toNat = 7 := rfl
    omega)
/-- … and its signed value is its unsigned one. -/
private theorem toInt_toNat_of_lt (hw : w.toNat < 8) : w.toInt.toNat = w.toNat := by
  rw [StableHlo.Predicate.toInt_eq_toNat_of_lt (by omega)]; rfl

end Words

/-! ## The layout operations at a row -/

section Layout
variable {α : Type}

/-- A vector as a column reads, at row n, the vector at n. -/
private theorem column_apply (x : S8388608.Idx → α) (h : S8388608.BroadcastsInDim S8388608x1 ![0]) (n : Fin 8388608) :
    broadcastInDim S8388608x1 ![0] h x (ix2 n 0) = x (ix1 n) :=
  broadcastInDim_apply _ h x (ix2 n 0) (ix1 n) fun a => by
    match a with
    | ⟨0, _⟩ => exact (if_neg (show ¬(8388608 : ℕ) = 1 by decide)).symm

/-- The column with a second unit axis reads the column. -/
private theorem column3_apply (x : S8388608x1.Idx → α) (h : S8388608x1.ShapeCasts S8388608x1x1) (n : Fin 8388608) :
    shapeCast S8388608x1x1 x h (ix3 n 0 0) = x (ix2 n 0) :=
  shapeCast_apply x h (ix3 n 0 0) (ix2 n 0) (by
    rw [Shape.rowMajor_val_two, Shape.rowMajor_val_three]
    show n.val * 1 + 0 = (n.val * 1 + 0) * 1 + 0
    omega)

/-- The column flattened back to a vector reads the column. -/
private theorem flatten_apply (x : S8388608x1.Idx → α) (h : S8388608x1.ShapeCasts S8388608) (n : Fin 8388608) :
    shapeCast S8388608 x h (ix1 n) = x (ix2 n 0) :=
  shapeCast_apply x h (ix1 n) (ix2 n 0) (by
    rw [Shape.rowMajor_val_two, Shape.rowMajor_val_one]
    show n.val * 1 + 0 = n.val
    omega)

/-- Every index of the column with two unit axes is a row. -/
private theorem eq_row3 (i : S8388608x1x1.Idx) : ∃ n : Fin 8388608, i = ix3 n 0 0 := by
  refine ⟨i 0, ?_⟩
  funext a
  match a with
  | ⟨0, _⟩ => rfl
  | ⟨1, h1⟩ => exact Fin.ext (by have := (i ⟨1, h1⟩).isLt; show (i ⟨1, h1⟩).val = 0; change _ < 1 at this; omega)
  | ⟨2, h2⟩ => exact Fin.ext (by have := (i ⟨2, h2⟩).isLt; show (i ⟨2, h2⟩).val = 0; change _ < 1 at this; omega)

end Layout

/-! ## The conjunction over the unit axis -/

/-- A left fold of the conjunction over bits that are all 1, from 1, is 1. -/
private theorem foldl_andi_ones {ι : Type} (f : ι → BitVec 1) (hf : ∀ i, f i = 1#1) :
    ∀ l : List ι, l.foldl (fun r n => IntOp.andi r (f n)) 1#1 = 1#1
  | [] => rfl
  | a :: l => by
      have e : IntOp.andi 1#1 (f a) = 1#1 := by rw [hf a]; rfl
      show List.foldl _ (IntOp.andi 1#1 (f a)) l = 1#1
      rw [e]; exact foldl_andi_ones f hf l

/-- So the and-reduction, from 1, of a vector of ones is 1 at every index. -/
private theorem reduce_andi_ones (x : IVec S8388608x1x1 1) (hx : ∀ i, x i = 1#1)
    (h : S8388608x1x1.ReducesTo [2] S8388608x1) (hu : 0 < S_.numel) (j : S8388608x1.Idx) :
    Host.reduce IntOp.andi x (constantI S_ 1 1#1) h hu j = 1#1 := by
  unfold Host.reduce
  exact foldl_andi_ones (fun n => x (S8388608x1x1.rowMajor.symm n)) (fun n => hx _) _

/-! ## The gather at a row -/

section Gather
variable {α : Type}

/-- On the row axis, which is batched, the operand index of result index j is j's row. -/
private theorem gather_axis_row (idx : IVec S8388608x1x1 32) (j : S8388608x1.Idx) :
    (gather_S8388608x8_S8388608x1x1_S8388608x1_n_1_0_0_1_2_11.operandIdx j idx 0).val = (j 0).val := by
  show gather_S8388608x8_S8388608x1x1_S8388608x1_n_1_0_0_1_2_11.start j idx 0
    + gather_S8388608x8_S8388608x1x1_S8388608x1_n_1_0_0_1_2_11.batchCoord j 0
    + gather_S8388608x8_S8388608x1x1_S8388608x1_n_1_0_0_1_2_11.offCoord j 0 = _
  rw [GatherDims.start_batching _ j idx 0 (List.mem_singleton.mpr rfl),
    GatherDims.offCoord_eq_zero _ j 0 (fun h => ((GatherDims.mem_sKept _ 0).mp h).2 (List.mem_singleton.mpr rfl))]
  unfold GatherDims.batchCoord
  rw [dif_pos (show (0 : Fin S8388608x8.rank) ∈ gather_S8388608x8_S8388608x1x1_S8388608x1_n_1_0_0_1_2_11.operandBatchingDims
    from List.mem_singleton.mpr rfl)]
  rw [Nat.zero_add, Nat.add_zero]
  rfl

/-- On the class axis the operand index is the start index at j's row, read signed and clamped into [0, 7]. -/
private theorem gather_axis_class (idx : IVec S8388608x1x1 32) (j : S8388608x1.Idx) :
    (gather_S8388608x8_S8388608x1x1_S8388608x1_n_1_0_0_1_2_11.operandIdx j idx 1).val
      = min (idx (ix3 (j 0) (j 1) 0)).toInt.toNat 7 := by
  show gather_S8388608x8_S8388608x1x1_S8388608x1_n_1_0_0_1_2_11.start j idx 1
    + gather_S8388608x8_S8388608x1x1_S8388608x1_n_1_0_0_1_2_11.batchCoord j 1
    + gather_S8388608x8_S8388608x1x1_S8388608x1_n_1_0_0_1_2_11.offCoord j 1 = _
  rw [GatherDims.batchCoord_eq_zero _ j 1 (by decide),
    GatherDims.offCoord_eq_zero _ j 1 (fun h => ((GatherDims.mem_sKept _ 1).mp h).1 (List.mem_singleton.mpr rfl))]
  unfold GatherDims.start
  rw [dif_pos (show (1 : Fin S8388608x8.rank) ∈ gather_S8388608x8_S8388608x1x1_S8388608x1_n_1_0_0_1_2_11.startIndexMap
    from List.mem_singleton.mpr rfl)]
  have hsi : gather_S8388608x8_S8388608x1x1_S8388608x1_n_1_0_0_1_2_11.siIdx j
      ⟨List.idxOf (1 : Fin 2) gather_S8388608x8_S8388608x1x1_S8388608x1_n_1_0_0_1_2_11.startIndexMap,
        List.idxOf_lt_length_iff.2 (List.mem_singleton.mpr rfl)⟩ = ix3 (j 0) (j 1) 0 := by
    funext b; refine Fin.ext ?_
    match b with
    | ⟨0, _⟩ => rfl
    | ⟨1, _⟩ => rfl
    | ⟨2, _⟩ => rfl
  rw [hsi]
  rfl

/-- The gather read at row n, when the start index there is a word below 8: the operand at (n, that class). -/
private theorem gather_row (x : S8388608x8.Idx → α) (idx : IVec S8388608x1x1 32) (n : Fin 8388608)
    (hw : (idx (ix3 n 0 0)).toNat < 8) :
    Host.gather gather_S8388608x8_S8388608x1x1_S8388608x1_n_1_0_0_1_2_11 x idx (ix2 n 0)
      = x (ix2 n (Cert.Focal.cls (idx (ix3 n 0 0)))) := by
  unfold Host.gather
  refine congrArg x (funext fun a => Fin.ext ?_)
  match a with
  | ⟨0, _⟩ => exact gather_axis_row idx (ix2 n 0)
  | ⟨1, _⟩ =>
    refine (gather_axis_class idx (ix2 n 0)).trans ?_
    show min (idx (ix3 n 0 0)).toInt.toNat 7 = (Cert.Focal.cls (idx (ix3 n 0 0))).val
    rw [toInt_toNat_of_lt hw, Cert.Focal.cls_val _ hw]
    omega

end Gather

/-! ## The loss at a row -/

/-- From the row values g: negate twice, exponentiate, subtract from 1, raise to the power 2, multiply by −g. -/
private theorem loss_apply (g : FVec Ideal S8388608 .f32) (h1 h2 : S_.BroadcastsInDim S8388608 ![]) (i : S8388608.Idx) :
    mulf (Host.powf
        (subf (broadcastInDim S8388608 ![] h1 (constant (F := Ideal) S_ .f32 0x3F800000#32))
          (Host.exp (Host.negf (Host.negf g))))
        (broadcastInDim S8388608 ![] h2 (constant (F := Ideal) S_ .f32 0x40000000#32)))
      (Host.negf g) i = Cert.Focal.lossR (g i) := rfl

/-! ## The second part -/

/-- With every class word below 8, the second part is the mean of the losses of the rows' own log-probabilities. -/
theorem tailTerm_eq (v4 : FVec Ideal S8388608x8 .f32) (t : IVec S8388608 32)
    (hT : ∀ n : Fin 8388608, (t (ix1 n)).toNat < 8) :
    tailTerm (F := Ideal) v4 t
      = fun _ => Ideal.div (Cert.Focal.w0 + ∑ n : Fin 8388608, Cert.Focal.lossR (v4 (ix2 n (Cert.Focal.cls (t (ix1 n))))))
          Cert.Focal.wN := by
  unfold tailTerm
  extract_lets col zero0 zeroCol isNeg eight0 eightCol plus8 wrapped idx seven1 zero3 ge0 sevenUnit seven3 le7 inRange3
    one0 inRange gathered nan0 nanCol kept g ng nng p one0f oneRow q two0 twoRow sq loss zero0f total cnt mean
  -- the class word as a column, and wrapped: a word below 8 is not negative, so it is left as it is
  have hcol : ∀ n, col (ix2 n 0) = t (ix1 n) := fun n => column_apply t _ n
  have hwrapped : ∀ n, wrapped (ix2 n 0) = t (ix1 n) := fun n => by
    show Scalar.select (IntOp.cmpi .slt (col (ix2 n 0)) 0#32) (plus8 (ix2 n 0)) (col (ix2 n 0)) = _
    rw [hcol n, slt_zero_of_lt (hT n), select_zero]
  have hidx : ∀ n, idx (ix3 n 0 0) = t (ix1 n) := fun n => (column3_apply wrapped _ n).trans (hwrapped n)
  -- the range test 0 ≤ · ≤ 7 holds at every index, and so does its conjunction over the unit axis
  have hinRange3 : ∀ i, inRange3 i = 1#1 := fun i => by
    obtain ⟨n, rfl⟩ := eq_row3 i
    show IntOp.andi (IntOp.cmpi .sge (idx (ix3 n 0 0)) 0#32) (IntOp.cmpi .sle (idx (ix3 n 0 0)) 7#32) = 1#1
    rw [hidx n, sge_zero_of_lt (hT n), sle_seven_of_lt (hT n)]
    rfl
  have hinRange : ∀ j, inRange j = 1#1 := fun j => reduce_andi_ones inRange3 hinRange3 _ _ j
  -- so the gathered entry is kept: the row's value is the log-softmax at the row's class
  have hg : ∀ n, g (ix1 n) = v4 (ix2 n (Cert.Focal.cls (t (ix1 n)))) := fun n => by
    refine (flatten_apply kept _ n).trans ?_
    show Scalar.select (inRange (ix2 n 0)) (gathered (ix2 n 0)) (nanCol (ix2 n 0)) = _
    rw [hinRange, select_one]
    show Host.gather _ v4 idx (ix2 n 0) = _
    rw [gather_row v4 idx n (by rw [hidx]; exact hT n), hidx]
  -- the loss of a row
  have hloss : ∀ n, loss (ix1 n) = Cert.Focal.lossR (v4 (ix2 n (Cert.Focal.cls (t (ix1 n))))) := fun n =>
    (loss_apply g _ _ (ix1 n)).trans (congrArg _ (hg n))
  -- the sum over the rank-1 index set is the sum over the rows
  have hsum : ∑ i : S8388608.Idx, loss i
      = ∑ n : Fin 8388608, Cert.Focal.lossR (v4 (ix2 n (Cert.Focal.cls (t (ix1 n))))) := by
    rw [← Equiv.sum_comp (idxEquiv1 (n := 8388608)).symm loss]
    exact Finset.sum_congr rfl fun n _ => hloss n
  funext j
  have htotal : total j = Cert.Focal.w0 + ∑ i : S8388608.Idx, loss i :=
    Ideal.hostReduceAdd_total _ (fun b => b.elim0) loss _ j
  show Ideal.div (total j) Cert.Focal.wN = _
  rw [htotal, hsum]

end Cert.ReferenceIdeal.RValue

end
-- ==== Proof.RValue.lean ====
/-
  The reference's result is the mean, row by row, of the row loss in the second arrangement: the tail reads the log-softmax at
  each row's own class, and that entry is the row's log-probability.
-/
import proofs.«413137_j20409684591021_2_alg».proof.Proof.RLsm
import proofs.«413137_j20409684591021_2_alg».proof.Proof.RTail

noncomputable section

namespace Cert.ReferenceIdeal.RValue

open Idealize.ShloMosaic Idealize.ShloMosaic.ValueIdx Cert.ReferenceIdeal

/-- With every class word below 8, the reference's term is the row-by-row mean loss of its arguments. -/
theorem refTerm_eq (x : FVec Ideal S8388608x3 .f32) (t : IVec S8388608 32)
    (hT : ∀ n : Fin 8388608, (t (ix1 n)).toNat < 8) :
    refTerm (F := Ideal) x t = fun _ => Cert.Focal.resR Mr br (fun n k => x (ix2 n k)) (fun n => t (ix1 n)) := by
  unfold refTerm
  rw [tailTerm_eq _ t hT]
  funext _
  unfold Cert.Focal.resR Cert.Focal.rowR
  exact congrArg (fun s => Ideal.div (Cert.Focal.w0 + s) Cert.Focal.wN)
    (Finset.sum_congr rfl fun n _ => congrArg Cert.Focal.lossR (lsmTerm_apply x n _))

end Cert.ReferenceIdeal.RValue

end
-- ==== Proof.PreDecode.lean ====
/-
  What the precondition says of the two inputs: every feature is a real number (its absolute value is below +inf), and every
  class word w satisfies 0 ≤ w < 8 as a signed number, so that as an unsigned number it is below 8.

  The precondition is a conjunction of two "for all" statements, each written as an and-reduction of a one-bit array down to a
  single bit. A conjunction that is 1 has both conjuncts 1, and an and-reduction that is 1 had a 1 at every position; what is
  left is to read one position of each array: |x| < +inf for a feature, and (0 ≤ w) and (w < 8), signed, for a class word.
-/
import proofs.«413137_j20409684591021_2_alg».proof.Pre_finite_inputs
import proofs.«413137_j20409684591021_2_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

/-- A rank-0 array has exactly one index: an index is a function on the empty set of axes. -/
private instance : Subsingleton Cert.Pre_finite_inputs.S_.Idx := ⟨fun a b => funext fun d => d.elim0⟩

/-- The 32-bit pattern with sign 0, exponent all ones and fraction 0 denotes +inf, the top extended real. -/
private theorem infWord : Ideal.ofBits .f32 0x7F800000#32 = (⊤ : EReal) := by
  simp [Ideal.ofBits, Ideal.ieee]

/-- An extended real a with max(a, −a) < ⊤ is a real number: at a = ⊤ the maximum is ⊤ itself, and at a = ⊥ it is
    −⊥ = ⊤, so in both infinite cases the strict inequality fails. -/
private theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- A 32-bit word w with 0 ≤ w and w < 8 in the signed reading is below 8 in the unsigned reading: the signed value is the
    unsigned one when the top bit is clear and the unsigned one minus 2³² otherwise, and the second case would make the
    signed value negative. -/
private theorem word_lt_eight (w : BitVec 32) (h0 : IntOp.cmpi .sge w 0#32 = 1#1) (h8 : IntOp.cmpi .slt w 8#32 = 1#1) :
    w.toNat < 8 := by
  rw [IntOp.cmpi_sge, show (0#32 : BitVec 32).toInt = 0 from by decide] at h0
  rw [IntOp.cmpi_slt, show (8#32 : BitVec 32).toInt = 8 from by decide] at h8
  rw [BitVec.toInt_eq_toNat_cond] at h0 h8
  have := w.isLt
  split at h0 <;> omega

/-- Where the precondition is all ones, the features are real and the class words are below 8. -/
theorem decode (x : FVec Ideal Cert.Pre_finite_inputs.S8388608x3 .f32) (t : IVec Cert.Pre_finite_inputs.S8388608 32)
    (h : Cert.Pre_finite_inputs.fn (F := Ideal) x t = fun _ => 1#1) :
    (∀ i, ∃ r : ℝ, x i = (r : EReal)) ∧ (∀ n : Fin 8388608, (t (ix1 n)).toNat < 8) := by
  -- the one bit of the result, as the conjunction of the two and-reductions
  have h0 := congrFun h ix0
  dsimp only [Cert.Pre_finite_inputs.fn] at h0
  obtain ⟨hx, ht⟩ := IntOp.andi_eq_one.1 h0
  refine ⟨fun i => ?_, fun n => ?_⟩
  · -- the feature at i: |x i| < +inf
    have e := Host.reduce_andi_all _ _ _ _ _ hx i
    have e' : Ideal.cmp .olt (max (x i) (-(x i))) (Ideal.ofBits .f32 0x7F800000#32) = 1#1 := e
    rw [infWord] at e'
    exact real_of_abs_lt_top _ e'
  · -- the class word of row n: 0 ≤ w and w < 8, signed
    have e := Host.reduce_andi_all _ _ _ _ _ ht (ix1 n)
    obtain ⟨e0, e8⟩ := IntOp.andi_eq_one.1 e
    exact word_lt_eight _ e0 e8

end Cert.PreDecode

end
-- ==== Proof.SpecSum.lean ====
/-
  The rows, summed block by block, are the rows summed in order: the map (half c, block i, lane n) ↦ (64 c + i) · 65536 + n is a
  bijection from 2 × 64 × 65536 triples onto the 8388608 rows.  With the row-by-row equality of the two arrangements this makes
  the two means one number.
-/
import proofs.«413137_j20409684591021_2_alg».proof.Proof.Spec
import Mathlib.Algebra.BigOperators.Fin
import Mathlib.Logic.Equiv.Fin.Basic

noncomputable section

namespace Cert.Focal

open Idealize.ShloMosaic

/-- The triples (half, block, lane) and the rows correspond one to one: a row n lies in half n / 4194304, in block
(n / 65536) mod 64 of that half, on lane n mod 65536, and these three digits rebuild n. -/
private def rowEquiv : Fin 2 × Fin 64 × Fin 65536 ≃ Fin 8388608 where
  toFun p := rowIx p.1 p.2.1 p.2.2
  invFun n :=
    (⟨n.val / 4194304, by have := n.isLt; omega⟩,
     ⟨n.val / 65536 % 64, by omega⟩,
     ⟨n.val % 65536, by omega⟩)
  left_inv := by
    rintro ⟨c, i, l⟩
    have hc := c.isLt
    have hi := i.isLt
    have hl := l.isLt
    refine Prod.ext (Fin.ext ?_) (Prod.ext (Fin.ext ?_) (Fin.ext ?_))
    · simp only [rowIx, Fin.val_mk]; omega
    · simp only [rowIx, Fin.val_mk]; omega
    · simp only [rowIx, Fin.val_mk]; omega
  right_inv := by
    intro n
    have hn := n.isLt
    apply Fin.ext
    simp only [rowIx, Fin.val_mk]
    omega

private theorem rowEquiv_apply (c : Fin 2) (i : Fin 64) (l : Fin 65536) : rowEquiv (c, i, l) = rowIx c i l := rfl

/-- Summing half by half, block by block, lane by lane visits every row once. -/
theorem sum_rowIx (f : Fin 8388608 → EReal) :
    ∑ c : Fin 2, ∑ i : Fin 64, ∑ lane : Fin 65536, f (rowIx c i lane) = ∑ n : Fin 8388608, f n := by
  rw [← Equiv.sum_comp rowEquiv f]
  simp only [Fintype.sum_prod_type, rowEquiv_apply]

/-- On real features the two means are one number. -/
theorem res_eq (M : Fin 8 → Fin 3 → EReal) (M' : Fin 3 → Fin 8 → EReal) (b : Fin 8 → EReal)
    (hM : ∀ j k, M j k = M' k j) (hMr : ∀ j k, ∃ r : ℝ, M j k = (r : EReal)) (hbr : ∀ j, ∃ r : ℝ, b j = (r : EReal))
    (X : Fin 8388608 → Fin 3 → EReal) (hX : ∀ n k, ∃ r : ℝ, X n k = (r : EReal)) (T : Fin 8388608 → BitVec 32) :
    resK M b X T = resR M' b X T := by
  unfold resK resR
  rw [sum_rowIx (fun n => rowK M b (X n) (T n))]
  exact congrArg (fun s => Ideal.div (w0 + s) wN)
    (Finset.sum_congr rfl fun n _ => row_eq M M' b hM hMr hbr (X n) (hX n) (T n))

end Cert.Focal

end
-- ==== Proof.lean ====
/-
  The mean focal loss of 8388608 rows, computed two ways, is one extended real.

  Both programs map a row's three finite features x to eight logits l j = M j · x + b j, take the log-softmax, pick the
  log-probability g of the row's class t (0 ≤ t < 8 by the precondition) and charge the loss (1 − eᵍ)² (−g); the result is the
  sum of the losses divided by the number of rows.  The kernel keeps the rows on lanes, walks them in 2 × 64 blocks of 65536,
  selects g by comparing the class numbers with t, squares by a product, adds each block's lane sum into one entry of an
  output block per half, and lets the host add the two halves.  The reference contracts the features with the transposed
  table, subtracts the row maximum before the logarithm instead of adding it back after, reads g by an indexed access, and
  squares by a real power with exponent 2.  Row by row the two losses agree because every intermediate quantity is a real
  number (this is where finiteness of the features is used), and a sum taken block by block is the sum taken in order.

  Each program's run is read to a closed value: the kernel's from the point-by-point contents of its output block, the
  reference's from its operations composed in order.  The precondition supplies the two facts the bridge needs: the
  features are real and the class words are below 8.
-/
import proofs.«413137_j20409684591021_2_alg».proof.Defs
import proofs.«413137_j20409684591021_2_alg».proof.Proof.Gen.Kernel
import proofs.«413137_j20409684591021_2_alg».proof.Proof.Gen.Kernel.Frame
import proofs.«413137_j20409684591021_2_alg».proof.Proof.Gen.KernelIdeal
import proofs.«413137_j20409684591021_2_alg».proof.Proof.Gen.KernelIdeal.Frame
import proofs.«413137_j20409684591021_2_alg».proof.Proof.Gen.ReferenceIdeal
import proofs.«413137_j20409684591021_2_alg».proof.Proof.Gen.Pre_finite_inputs
import proofs.«413137_j20409684591021_2_alg».proof.Proof.KFinal
import proofs.«413137_j20409684591021_2_alg».proof.Proof.RRun
import proofs.«413137_j20409684591021_2_alg».proof.Proof.RValue
import proofs.«413137_j20409684591021_2_alg».proof.Proof.PreDecode
import proofs.«413137_j20409684591021_2_alg».proof.Proof.SpecSum

noncomputable section

namespace Cert.Proof

open Idealize.ShloMosaic Idealize.ShloMosaic.TcCoe Idealize.ShloMosaic.ValueIdx Idealize.SL.Sem

/-! ## The two constant tables -/

/-- Every entry of the kernel's 8 × 3 table is a real number. -/
theorem table_real : ∀ (j : Fin 8) (k : Fin 3), ∃ r : ℝ, Cert.KernelIdeal.KValue.Mk j k = (r : EReal) := by
  intro j k
  fin_cases j <;> fin_cases k <;> exact Cert.Focal.word_real _ (by decide)

/-- Every offset is a real number. -/
theorem offsets_real : ∀ (j : Fin 8), ∃ r : ℝ, Cert.KernelIdeal.KValue.bk j = (r : EReal) := by
  intro j
  fin_cases j <;> exact Cert.Focal.word_real _ (by decide)

/-- The kernel's table is the reference's, transposed: entry (j, k) of one is entry (k, j) of the other, word for word. -/
theorem table_eq : ∀ (j : Fin 8) (k : Fin 3), Cert.KernelIdeal.KValue.Mk j k = Cert.ReferenceIdeal.RValue.Mr k j := by
  intro j k
  fin_cases j <;> fin_cases k <;> rfl

/-- The two programs spell the same offsets. -/
theorem offsets_eq : Cert.KernelIdeal.KValue.bk = Cert.ReferenceIdeal.RValue.br := by
  funext j
  fin_cases j <;> rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference runs and keeps its arguments: its run, with the result forgotten. -/
theorem frame_ri : Cert.frame_ReferenceIdeal := fun m ρ _ =>
  (θ_run Cert.ReferenceIdeal.defs _ _).mono (fun _ h c => (h c).2) (Cert.ReferenceIdeal.RValue.run (F := Ideal) m ρ)

/-- The ideal pass rewrote nothing. -/
theorem preserves : Cert.preserves_Kernel_KernelIdeal := trivial

/-- From memories that agree on the arguments, the kernel ends at the block-by-block mean loss and the reference at the
    row-by-row mean loss of the same features and class words: one number, the features being real and the class words
    below 8. -/
theorem algebraic : Cert.algebraic_KernelIdeal_ReferenceIdeal := by
  intro m ρ m' ρ' hpre hagree
  have hdec := fun c => Cert.PreDecode.decode _ _ (hpre c)
  refine ⟨fun c => (fun _ => Cert.Focal.resK Cert.KernelIdeal.KValue.Mk Cert.KernelIdeal.KValue.bk
      (Cert.KernelIdeal.KValue.Xof m c) (Cert.KernelIdeal.KValue.Tof m c)),
    Cert.KernelIdeal.KValue.run m ρ (fun c n => (hdec c).2 n), ?_⟩
  refine (θ_run Cert.ReferenceIdeal.defs _ _).mono (fun _ h c => ⟨(h c).1.trans ?_, (h c).2.1, (h c).2.2⟩)
    (Cert.ReferenceIdeal.RValue.run (F := Ideal) m' ρ')
  rw [(hagree c).1, (hagree c).2]
  rw [Cert.ReferenceIdeal.RValue.refTerm_eq _ _ (hdec c).2]
  funext _
  rw [← offsets_eq]
  exact (Cert.Focal.res_eq Cert.KernelIdeal.KValue.Mk Cert.ReferenceIdeal.RValue.Mr Cert.KernelIdeal.KValue.bk
    table_eq table_real offsets_real (Cert.KernelIdeal.KValue.Xof m c) (fun n k => (hdec c).1 (ix2 n k))
    (Cert.KernelIdeal.KValue.Tof m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
